-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x4096 : Shape := ⟨3, ![16, 3, 4096]⟩
abbrev S16x128 : Shape := ⟨2, ![16, 128]⟩
abbrev S_ : Shape := ⟨0, ![]⟩

class Facts : Prop where
  bcast_S_S16x3x4096 : S_.BroadcastsInDim S16x3x4096 (![] : Fin 0 → Fin S16x3x4096.rank)
  reducesTo_S16x3x4096_S_d0_1_2 : S16x3x4096.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn_part1 {F : FTy → Type} [FloatOps F] (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  main_v18

def fn {F : FTy → Type} [FloatOps F] (main_arg0 : FVec F S16x3x4096 .f32) (main_arg1 : FVec F S16x3x4096 .f32) (main_arg2 : FVec F S16x128 .f32) (main_arg3 : FVec F S16x128 .f32) : IVec S_ 1 :=
  let main_v0 : FVec F S16x3x4096 .f32 := Host.absf main_arg0
  let main_cst : FVec F S_ .f32 := constant S_ .f32 0x7F800000#32
  let main_v1 : FVec F S16x3x4096 .f32 := broadcastInDim S16x3x4096 ![] bcast_S_S16x3x4096 main_cst
  let main_v2 : IVec S16x3x4096 1 := cmpf .olt main_v0 main_v1
  let main_c : IVec S_ 1 := constantI S_ 1 1#1
  let main_v3 : IVec S_ 1 := (fun x v => Host.reduce IntOp.andi x v reducesTo_S16x3x4096_S_d0_1_2 h_S_) main_v2 main_c
  let main_v4 : FVec F S16x3x4096 .f32 := Host.absf main_arg1
  let main_cst_0 : FVec F S_ .f32 := constant S_ .f32 0x7F800000#32
  let main_v5 : FVec F S16x3x4096 .f32 := broadcastInDim S16x3x4096 ![] bcast_S_S16x3x4096 main_cst_0
  let main_v6 : IVec S16x3x4096 1 := cmpf .olt main_v4 main_v5
  let main_c_1 : IVec S_ 1 := constantI S_ 1 1#1
  let main_v7 : IVec S_ 1 := (fun x v => Host.reduce IntOp.andi x v reducesTo_S16x3x4096_S_d0_1_2 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16x128 .f32 := Host.absf main_arg3
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_v13 main_v16
-- ==== Kernel.lean ====
abbrev S16x3x4096 : Shape := ⟨3, ![16, 3, 4096]⟩
abbrev S16x128 : Shape := ⟨2, ![16, 128]⟩
abbrev S16x1x128 : Shape := ⟨3, ![16, 1, 128]⟩
abbrev S1x3x1024 : Shape := ⟨3, ![1, 3, 1024]⟩
abbrev S1x1x128 : Shape := ⟨3, ![1, 1, 128]⟩
abbrev S1x4096 : Shape := ⟨2, ![1, 4096]⟩
abbrev S3x1024 : Shape := ⟨2, ![3, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1x1x4096 : Shape := ⟨3, ![1, 1, 4096]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩

abbrev nBuf : Space → Nat
  | .hbm => 21
  | .vmem => 8
  | .smem => 0
  | _ => 0

abbrev bufTy : (tb : Table) → Fin (tcTables nBuf tb) → BufTy
  | .hbm, ⟨0, _⟩ => ⟨S16x3x4096, .f32⟩
  | .hbm, ⟨1, _⟩ => ⟨S16x3x4096, .f32⟩
  | .hbm, ⟨2, _⟩ => ⟨S16x128, .f32⟩
  | .hbm, ⟨3, _⟩ => ⟨S16x128, .f32⟩
  | .hbm, ⟨4, _⟩ => ⟨S16x1x128, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S16x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1x128, .f32⟩
  | .local _ .vmem, ⟨5, _⟩ => ⟨S1x1x128, .f32⟩
  | .local _ .vmem, ⟨6, _⟩ => ⟨S1x4096, .f32⟩
  | .local _ .vmem, ⟨7, _⟩ => ⟨S1x4096, .f32⟩
  | _, _ => ⟨S16x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_mult1 (i : grid0.Coords) : BitVec 32 :=
  let arg1 : BitVec 32 := BitVec.ofNat 32 (i 1).val
  let c1024_i32 : BitVec 32 := 1024#32
  let v50 : BitVec 32 := Scalar.muli arg1 c1024_i32
  v50
def k0_mult2 (i : grid0.Coords) : BitVec 32 :=
  let arg2 : BitVec 32 := BitVec.ofNat 32 (i 2).val
  let c1024_i32_9 : BitVec 32 := 1024#32
  let v52 : BitVec 32 := Scalar.muli arg2 c1024_i32_9
  v52
def k0_off1 (i : grid0.Coords) : Fin 2 → Nat :=
  let c0_12 : Index := 0#32
  let arg1 : BitVec 32 := BitVec.ofNat 32 (i 1).val
  let c1024_i32 : BitVec 32 := 1024#32
  let v50 : BitVec 32 := Scalar.muli arg1 c1024_i32
  let v51 : BitVec 32 := v50
  let v56 : Index := Scalar.indexCast v51
  ![0, v56.toNat]
def k0_off2 (i : grid0.Coords) : Fin 2 → Nat :=
  let c0_14 : Index := 0#32
  let arg2 : BitVec 32 := BitVec.ofNat 32 (i 2).val
  let c1024_i32_9 : BitVec 32 := 1024#32
  let v52 : BitVec 32 := Scalar.muli arg2 c1024_i32_9
  let v53 : BitVec 32 := v52
  let v64 : Index := Scalar.indexCast v53
  ![0, v64.toNat]
def k0_cond2 (i : grid0.Coords) : BitVec 1 :=
  let arg1 : BitVec 32 := BitVec.ofNat 32 (i 1).val
  let c3_i32 : BitVec 32 := 3#32
  let v72 : BitVec 1 := Scalar.cmpi .eq arg1 c3_i32
  let arg2 : BitVec 32 := BitVec.ofNat 32 (i 2).val
  let c3_i32_16 : BitVec 32 := 3#32
  let v73 : BitVec 1 := Scalar.cmpi .eq arg2 c3_i32_16
  let v74 : BitVec 1 := Scalar.andi v72 v73
  let v75 : BitVec 32 := Scalar.extui v74
  let c0_i32_17 : BitVec 32 := 0#32
  let v76 : BitVec 1 := Scalar.cmpi .ne v75 c0_i32_17
  v76

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S1024 : S3x1024.Reduces [0] S1024
  slices_S3x1024_o0_0_S1x1024 : S3x1024.Slices ![0, 0] S1x1024
  shapeCasts_S1x1024_S1024 : S1x1024.ShapeCasts S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  slices_S3x1024_o1_0_S1x1024 : S3x1024.Slices ![1, 0] S1x1024
  slices_S3x1024_o2_0_S1x1024 : S3x1024.Slices ![2, 0] S1x1024
  reduces_S1024x1024_S1024 : S1024x1024.Reduces [1] S1024
  reduces_S1024x1024_S1024_2 : S1024x1024.Reduces [0] S1024
  h_S1x1024 : 0 < S1x1024.numel
  shapeCasts_S1x1024_S1x1024 : S1x1024.ShapeCasts S1x1024
  shapeCasts_S1x4096_S1x1x4096 : S1x4096.ShapeCasts S1x1x4096
  reduces_S1x1x4096_S1 : S1x1x4096.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  bcast_S_S16x128 : S_.BroadcastsInDim S16x128 (![] : Fin 0 → Fin S16x128.rank)
  reducesTo_S16x128_S_d0_1 : S16x128.ReducesTo [0, 1] S_
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1x1024.size a ≤ S1x4096.size a
  k0_off2_inb : ∀ i : grid0.Coords, ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S16x3x4096.size a
  hwx0_0 : ∀ i : grid0.Coords, EltTy.bits .f32 = 32 ∨ (Rect.block (s := S16x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S16x3x4096.size a
  hwx0_1 : ∀ i : grid0.Coords, EltTy.bits .f32 = 32 ∨ (Rect.block (s := S16x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

abbrev win0_0 : Pipeline.Window sig grid0 :=
  Pipeline.Window.ofSpec (Memref.whole main_arg0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x3x4096 : Shape := ⟨3, ![16, 3, 4096]⟩
abbrev S16x128 : Shape := ⟨2, ![16, 128]⟩
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S16x3x4096, .f32⟩
  | .hbm, ⟨1, _⟩ => ⟨S16x3x4096, .f32⟩
  | .hbm, ⟨2, _⟩ => ⟨S16x128, .f32⟩
  | .hbm, ⟨3, _⟩ => ⟨S16x128, .f32⟩
  | .hbm, ⟨4, _⟩ => ⟨S16x4096x3, .f32⟩
  | .hbm, ⟨5, _⟩ => ⟨S16x4096x3, .f32⟩
  | .hbm, ⟨6, _⟩ => ⟨S16x4096x3, .f32⟩
  | .hbm, ⟨7, _⟩ => ⟨S_, .f32⟩
  | .hbm, ⟨8, _⟩ => ⟨S16x4096, .f32⟩
  | .hbm, ⟨9, _⟩ => ⟨S16x4096x3, .f32⟩
  | .hbm, ⟨10, _⟩ => ⟨S_, .f32⟩
  | .hbm, ⟨11, _⟩ => ⟨S16x4096, .f32⟩
  | .hbm, ⟨12, _⟩ => ⟨S16x4096x4096, .f32⟩
  | .hbm, ⟨13, _⟩ => ⟨S16x4096x1, .f32⟩
  | .hbm, ⟨14, _⟩ => ⟨S16x1x4096, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16x128, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S16x128, .f32⟩
  | .hbm, ⟨37, _⟩ => ⟨S16x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  transposes_S16x3x4096_S16x4096x3_0_2_1 : S16x3x4096.Transposes [0, 2, 1] S16x4096x3
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d1 : S16x4096x4096.ReducesTo [1] S16x4096
  reducesTo_S16x4096_S_d0_1 : S16x4096.ReducesTo [0, 1] S_
  reducesTo_S16x4096x4096_S16x4096_d2 : S16x4096x4096.ReducesTo [2] S16x4096
  bcast_S_S16x128 : S_.BroadcastsInDim S16x128 (![] : Fin 0 → Fin S16x128.rank)
  reducesTo_S16x128_S_d0_1 : S16x128.ReducesTo [0, 1] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.ChamferSpec.lean ====
/-
  The mathematics both programs compute, with no program in sight.

  Two clouds of 4096 points in ℝ³ per batch entry, stored channels-first as [16, 3, 4096] arrays g and p.  For batch b the
  squared-distance field is  Q n m = (|g_n|² + |p_m|²) − 2 · (g_n · p_m),  the dot product spelt as the left-nested sum
  of its three products.  The Chamfer part of the loss is  Σ_b (Σ_n min_m Q n m + Σ_m min_n Q n m).
  The field is visited in sixteen 1024 × 1024 tiles, row tile major; rowAcc Q k and colAcc Q k are the running row and
  column minima once the first k tiles have been visited (nothing visited: +∞, all sixteen: the full minima), and
  one more tile changes only the rows (columns) of that tile, by a minimum with the tile's own row (column) minimum.
-/
import Idealize.ShloMosaic.PureOps.Ideal
import Idealize.ShloMosaic.Lib.ValueIdx
import Mathlib.Order.Lattice
import Mathlib.Data.Finset.Lattice.Fold
import Mathlib.Data.EReal.Basic
import Mathlib.Algebra.BigOperators.Group.Finset.Basic

noncomputable section

open scoped BigOperators

namespace Cert.Chamfer

open Idealize.ShloMosaic Idealize.ShloMosaic.ValueIdx

/-- A batch of point clouds, channels-first, over the extended reals. -/
abbrev Cloud : Type := (⟨3, ![16, 3, 4096]⟩ : Shape).Idx → EReal

/-- The factor 2.0 of the cross term, kept as its f32 word (the same word on both sides). -/
def two : EReal := Ideal.ofBits .f32 0x40000000#32

/-- The squared distance between point n of cloud g and point m of cloud p in batch entry b. -/
def pd (g p : Cloud) (b : Fin 16) (n m : Fin 4096) : EReal :=
  ((∑ d : Fin 3, g (ix3 b d n) * g (ix3 b d n)) + (∑ d : Fin 3, p (ix3 b d m) * p (ix3 b d m)))
    - two * ((g (ix3 b 0 n) * p (ix3 b 0 m) + g (ix3 b 1 n) * p (ix3 b 1 m)) + g (ix3 b 2 n) * p (ix3 b 2 m))

/-- The 1024-wide tile an index of a 4096-long axis lies in. -/
def tileOf (n : Fin 4096) : ℕ := n.val / 1024

/-- Position j of tile q on a 4096-long axis. -/
def inTile (q : ℕ) (hq : q < 4) (j : Fin 1024) : Fin 4096 := ⟨1024 * q + j.val, by have := j.isLt; omega⟩

/-- The running minimum of row n over the columns of the first k tiles (row-tile major order). -/
def rowAcc (Q : Fin 4096 → Fin 4096 → EReal) (k : ℕ) (n : Fin 4096) : EReal :=
  (Finset.univ.filter fun m : Fin 4096 => 4 * tileOf n + tileOf m < k).inf fun m => Q n m

/-- The running minimum of column m over the rows of the first k tiles. -/
def colAcc (Q : Fin 4096 → Fin 4096 → EReal) (k : ℕ) (m : Fin 4096) : EReal :=
  (Finset.univ.filter fun n : Fin 4096 => 4 * tileOf n + tileOf m < k).inf fun n => Q n m

/-- The minimum of row n over all columns, and of column m over all rows. -/
def rowMin (Q : Fin 4096 → Fin 4096 → EReal) (n : Fin 4096) : EReal := Finset.univ.inf fun m => Q n m
def colMin (Q : Fin 4096 → Fin 4096 → EReal) (m : Fin 4096) : EReal := Finset.univ.inf fun n => Q n m

/-- One batch entry's Chamfer sum. -/
def batchOut (Q : Fin 4096 → Fin 4096 → EReal) : EReal := (∑ n : Fin 4096, rowMin Q n) + (∑ m : Fin 4096, colMin Q m)

variable (Q : Fin 4096 → Fin 4096 → EReal)

/-- The f32 word of +∞ is the top of the extended reals. -/
theorem ofBits_inf : Ideal.ofBits .f32 0x7F800000#32 = (⊤ : EReal) := by
  simp [Ideal.ofBits, Ideal.ieee]

/-- A fold of min from +∞ is the infimum. -/
theorem fold_min_eq_inf {ι : Type*} (s : Finset ι) (f : ι → EReal) :
    s.fold min (Ideal.ofBits .f32 0x7F800000#32) f = s.inf f := by
  classical
  rw [ofBits_inf]
  induction s using Finset.induction_on with
  | empty => simp
  | insert a s ha ih => rw [Finset.fold_insert ha, Finset.inf_insert, ih]

theorem rowAcc_zero (n : Fin 4096) : rowAcc Q 0 n = ⊤ := by
  simp [rowAcc]

theorem colAcc_zero (m : Fin 4096) : colAcc Q 0 m = ⊤ := by
  simp [colAcc]

/-- An index lying in tile q is position (index − 1024 q) of that tile. -/
private theorem eq_inTile (q : ℕ) (hq : q < 4) (m : Fin 4096) (hm : tileOf m = q) :
    ∃ j : Fin 1024, m = inTile q hq j := by
  have hlt := m.isLt
  unfold tileOf at hm
  refine ⟨⟨m.val - 1024 * q, by omega⟩, ?_⟩
  apply Fin.ext
  simp only [inTile]
  omega

/-- Every position of tile q lies in tile q. -/
private theorem tileOf_inTile (q : ℕ) (hq : q < 4) (j : Fin 1024) : tileOf (inTile q hq j) = q := by
  have hj := j.isLt
  simp only [tileOf, inTile]
  omega

/-- Visiting tile s (row tile s / 4, column tile s % 4) updates exactly the rows of row tile s / 4. -/
theorem rowAcc_succ (s : ℕ) (hs : s < 16) (n : Fin 4096) :
    rowAcc Q (s + 1) n
      = if tileOf n = s / 4 then
          min (rowAcc Q s n) (Finset.univ.inf fun j : Fin 1024 => Q n (inTile (s % 4) (Nat.mod_lt _ (by decide)) j))
        else rowAcc Q s n := by
  have hn : tileOf n < 4 := by have := n.isLt; unfold tileOf; omega
  split_ifs with h
  · apply eq_of_forall_le_iff
    intro c
    simp only [rowAcc, le_min_iff, Finset.le_inf_iff, Finset.mem_filter, Finset.mem_univ, true_and]
    constructor
    · intro H
      refine ⟨fun m hm => H m (by omega), fun j _ => H _ ?_⟩
      rw [tileOf_inTile]
      omega
    · rintro ⟨H1, H2⟩ m hm
      by_cases hlt : 4 * tileOf n + tileOf m < s
      · exact H1 m hlt
      · obtain ⟨j, rfl⟩ := eq_inTile (s % 4) (Nat.mod_lt _ (by decide)) m (by omega)
        exact H2 j trivial
  · have hm : ∀ m : Fin 4096, tileOf m < 4 := fun m => by have := m.isLt; unfold tileOf; omega
    unfold rowAcc
    congr 1
    apply Finset.filter_congr
    intro m _
    have := hm m
    omega

/-- … and exactly the columns of column tile s % 4. -/
theorem colAcc_succ (s : ℕ) (hs : s < 16) (m : Fin 4096) :
    colAcc Q (s + 1) m
      = if tileOf m = s % 4 then
          min (colAcc Q s m) (Finset.univ.inf fun j : Fin 1024 => Q (inTile (s / 4) (by omega) j) m)
        else colAcc Q s m := by
  have hm : tileOf m < 4 := by have := m.isLt; unfold tileOf; omega
  have hall : ∀ n : Fin 4096, tileOf n < 4 := fun n => by have := n.isLt; unfold tileOf; omega
  have hq : s / 4 < 4 := by omega
  split_ifs with h
  · apply eq_of_forall_le_iff
    intro c
    simp only [colAcc, le_min_iff, Finset.le_inf_iff, Finset.mem_filter, Finset.mem_univ, true_and]
    constructor
    · intro H
      refine ⟨fun n hn => H n (by omega), fun j _ => H _ ?_⟩
      rw [tileOf_inTile]
      omega
    · rintro ⟨H1, H2⟩ n hn
      by_cases hlt : 4 * tileOf n + tileOf m < s
      · exact H1 n hlt
      · have hn4 := hall n
        have hnq : tileOf n = s / 4 := by omega
        obtain ⟨j, rfl⟩ := eq_inTile (s / 4) hq n hnq
        exact H2 j trivial
  · unfold colAcc
    congr 1
    apply Finset.filter_congr
    intro n _
    have := hall n
    omega

theorem rowAcc_sixteen (n : Fin 4096) : rowAcc Q 16 n = rowMin Q n := by
  unfold rowAcc rowMin
  congr 1
  apply Finset.filter_true_of_mem
  intro m _
  have := n.isLt
  have := m.isLt
  unfold tileOf
  omega

theorem colAcc_sixteen (m : Fin 4096) : colAcc Q 16 m = colMin Q m := by
  unfold colAcc colMin
  congr 1
  apply Finset.filter_true_of_mem
  intro n _
  have := n.isLt
  have := m.isLt
  unfold tileOf
  omega

/-- Summing the per-batch Chamfer sums from zero is the column-minima total plus the row-minima total, each summed
    from zero: commutativity and associativity of + on the extended reals only. -/
theorem chamfer_total (R C : Fin 16 → Fin 4096 → EReal) :
    (0 : EReal) + ∑ b : Fin 16, ((∑ n : Fin 4096, R b n) + (∑ m : Fin 4096, C b m))
      = ((0 : EReal) + ∑ b : Fin 16, ∑ m : Fin 4096, C b m) + ((0 : EReal) + ∑ b : Fin 16, ∑ n : Fin 4096, R b n) := by
  rw [zero_add, zero_add, zero_add, Finset.sum_add_distrib, add_comm]

end Cert.Chamfer

end
-- ==== Proof.KernelPayloads.lean ====
/-
  The kernel body's arithmetic at one grid point, read at an index over the extended reals.

  From a block xg of the first cloud's tile (rows of the distance field) and a block xp of the second cloud's tile
  (columns), the body forms the tile of squared distances  blockPd xg xp r c, takes its row minima and its column minima,
  and lowers a 1024-wide slab of each running-minimum vector by them; at a batch entry's last tile it adds up the two
  running-minimum vectors and fills the output block with that one number.
-/
import proofs.«129924_j19121194402402_1_alg».proof.Proof.Gen.KernelIdeal.Skeleton
import proofs.«129924_j19121194402402_1_alg».proof.Proof.ChamferSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.ChamferValue

open Idealize.ShloMosaic Idealize.ShloMosaic.ValueIdx Cert.KernelIdeal Cert.KernelIdeal.Gen Cert.Chamfer

/-- The squared distance between point r of the block xg and point c of the block xp. -/
def blockPd (xg xp : Vec Ideal S1x3x1024 .f32) (r c : Fin 1024) : EReal :=
  ((∑ d : Fin 3, xg (ix3 (0 : Fin 1) d r) * xg (ix3 (0 : Fin 1) d r)) + (∑ d : Fin 3, xp (ix3 (0 : Fin 1) d c) * xp (ix3 (0 : Fin 1) d c)))
    - two * ((xg (ix3 (0 : Fin 1) (0 : Fin 3) r) * xp (ix3 (0 : Fin 1) (0 : Fin 3) c) + xg (ix3 (0 : Fin 1) (1 : Fin 3) r) * xp (ix3 (0 : Fin 1) (1 : Fin 3) c))
        + xg (ix3 (0 : Fin 1) (2 : Fin 3) r) * xp (ix3 (0 : Fin 1) (2 : Fin 3) c))

/-! ## Layout operations at an index: a vector as a column, and a column spread over the tile -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The channel rows of a block, as a column and as a row of the tile -/

/-- A block with its unit batch axis dropped reads, at (d, r), the block at (0, d, r). -/
theorem pay7_apply (x : Vec Ideal S1x3x1024 .f32) (d : Fin 3) (r : Fin 1024) :
    k0_pay7 (F := Ideal) x (ix2 d r) = x (ix3 (0 : Fin 1) d r) :=
  shapeCast_1ab_ab_apply x shapeCasts_S1x3x1024_S3x1024 d r

theorem pay8_apply (x : Vec Ideal S1x3x1024 .f32) (d : Fin 3) (r : Fin 1024) :
    k0_pay8 (F := Ideal) x (ix2 d r) = x (ix3 (0 : Fin 1) d r) :=
  shapeCast_1ab_ab_apply x shapeCasts_S1x3x1024_S3x1024 d r

/-- Channel k of a [3, 1024] array spread down the columns of the tile: at (r, c), the array at (k, r). -/
theorem chan_col_apply (o : Nat) (h : S3x1024.Slices ![o, 0] S1x1024) (k : Fin 3) (hk : k.val = o)
    (y : FVec Ideal S3x1024 .f32) (r c : Fin 1024) :
    broadcastTo S1024x1024
        (shapeCast S1024x1 (shapeCast S1024 (extractStridedSlice S1x1024 ![o, 0] y h) shapeCasts_S1x1024_S1024)
          shapeCasts_S1024_S1024x1) broadcasts_S1024x1_S1024x1024 (ix2 r c) = y (ix2 k r) := by
  refine (broadcastTo_a1_ab_apply _ _ r c).trans ?_
  refine (shapeCast_a_a1_apply _ _ r 0).trans ?_
  refine (shapeCast_1a_a_apply _ _ r).trans ?_
  exact slice2_axis0_apply o y h 0 r k hk

/-- Channel k of a [3, 1024] array spread along the rows of the tile: at (r, c), the array at (k, c). -/
theorem chan_row_apply (o : Nat) (h : S3x1024.Slices ![o, 0] S1x1024) (k : Fin 3) (hk : k.val = o)
    (y : FVec Ideal S3x1024 .f32) (r c : Fin 1024) :
    broadcastTo S1024x1024
        (shapeCast S1x1024 (shapeCast S1024 (extractStridedSlice S1x1024 ![o, 0] y h) shapeCasts_S1x1024_S1024)
          shapeCasts_S1024_S1x1024) broadcasts_S1x1024_S1024x1024 (ix2 r c) = y (ix2 k c) := by
  refine (broadcastTo_1b_ab_apply _ _ r c).trans ?_
  refine (shapeCast_a_1a_apply _ _ 0 c).trans ?_
  refine (shapeCast_1a_a_apply _ _ c).trans ?_
  exact slice2_axis0_apply o y h 0 c k hk

/-- The tile of dot products at (r, c): the left-nested sum of the three channel products. -/
theorem pay9_apply (xg xp : Vec Ideal S1x3x1024 .f32) (r c : Fin 1024) :
    k0_pay9 (F := Ideal) xg xp (ix2 r c)
      = (xg (ix3 (0 : Fin 1) (0 : Fin 3) r) * xp (ix3 (0 : Fin 1) (0 : Fin 3) c) + xg (ix3 (0 : Fin 1) (1 : Fin 3) r) * xp (ix3 (0 : Fin 1) (1 : Fin 3) c))
        + xg (ix3 (0 : Fin 1) (2 : Fin 3) r) * xp (ix3 (0 : Fin 1) (2 : Fin 3) c) := by
  unfold k0_pay9
  have c0 := (chan_col_apply 0 slices_S3x1024_o0_0_S1x1024 0 rfl (k0_pay7 xg) r c).trans (pay7_apply xg 0 r)
  have c1 := (chan_col_apply 1 slices_S3x1024_o1_0_S1x1024 1 rfl (k0_pay7 xg) r c).trans (pay7_apply xg 1 r)
  have c2 := (chan_col_apply 2 slices_S3x1024_o2_0_S1x1024 2 rfl (k0_pay7 xg) r c).trans (pay7_apply xg 2 r)
  have r0 := (chan_row_apply 0 slices_S3x1024_o0_0_S1x1024 0 rfl (k0_pay8 xp) r c).trans (pay8_apply xp 0 c)
  have r1 := (chan_row_apply 1 slices_S3x1024_o1_0_S1x1024 1 rfl (k0_pay8 xp) r c).trans (pay8_apply xp 1 c)
  have r2 := (chan_row_apply 2 slices_S3x1024_o2_0_S1x1024 2 rfl (k0_pay8 xp) r c).trans (pay8_apply xp 2 c)
  exact congrArg₂ (· + ·) (congrArg₂ (· + ·) (congrArg₂ (· * ·) c0 r0) (congrArg₂ (· * ·) c1 r1)) (congrArg₂ (· * ·) c2 r2)

/-! ## The squared norms -/

/-- The sum over the channel axis of a [3, 1024] array, at r: the sum over d of the array at (d, r). -/
theorem chanSum_apply (src : FVec Ideal S3x1024 .f32) (r : Fin 1024) :
    multiReduction (F := Ideal) .add [0] S1024 src 0x00000000#32 reduces_S3x1024_S1024 (.inl rfl) rfl (ix1 r)
      = ∑ d : Fin 3, src (ix2 d r) := by
  refine (Ideal.multiReduction_add_single src _ reduces_S3x1024_S1024 _ _ (ix1 r)).trans ?_
  refine Finset.sum_congr rfl fun d _ => congrArg src ?_
  funext ax
  match ax with
  | ⟨0, _⟩ => exact Fin.ext rfl
  | ⟨1, _⟩ => exact Fin.ext rfl

/-- The squared norms of the second block's points, as a row: at (0, c), the sum over d of the squares. -/
theorem pay10_apply (xp : Vec Ideal S1x3x1024 .f32) (u : Fin 1) (c : Fin 1024) :
    k0_pay10 (F := Ideal) xp (ix2 u c) = ∑ d : Fin 3, xp (ix3 (0 : Fin 1) d c) * xp (ix3 (0 : Fin 1) d c) := by
  unfold k0_pay10
  refine (shapeCast_a_1a_apply _ _ u c).trans ?_
  refine (chanSum_apply _ c).trans ?_
  exact Finset.sum_congr rfl fun d _ => congrArg₂ (· * ·) (pay8_apply xp d c) (pay8_apply xp d c)

/-- The squared norms of the first block's points, spread down the columns: at (r, c), the sum over d of the squares. -/
theorem pay11_apply (xg : Vec Ideal S1x3x1024 .f32) (r c : Fin 1024) :
    k0_pay11 (F := Ideal) xg (ix2 r c) = ∑ d : Fin 3, xg (ix3 (0 : Fin 1) d r) * xg (ix3 (0 : Fin 1) d r) := by
  unfold k0_pay11
  refine (broadcastTo_a1_ab_apply _ _ r c).trans ?_
  refine (shapeCast_a_a1_apply _ _ r 0).trans ?_
  refine (chanSum_apply _ r).trans ?_
  exact Finset.sum_congr rfl fun d _ => congrArg₂ (· * ·) (pay7_apply xg d r) (pay7_apply xg d r)

/-- The tile of squared distances at (r, c). -/
theorem pay1_apply (xg xp : Vec Ideal S1x3x1024 .f32) (r c : Fin 1024) :
    k0_pay1 (F := Ideal) (k0_pay9 xg xp) (k0_pay10 xp) (k0_pay11 xg) (ix2 r c) = blockPd xg xp r c := by
  unfold k0_pay1 blockPd
  have e9 := pay9_apply xg xp r c
  have e10 := (broadcastTo_1b_ab_apply (k0_pay10 (F := Ideal) xp) broadcasts_S1x1024_S1024x1024 r c).trans (pay10_apply xp 0 c)
  have e11 := pay11_apply xg r c
  exact congrArg₂ (· - ·) (congrArg₂ (· + ·) e11 e10) (congrArg (two * ·) e9)

/-! ## The row and column minima of a tile -/

/-- The minimum over the column axis of a tile, at r: the infimum over c of the tile at (r, c). -/
theorem rowMin_apply (X : FVec Ideal S1024x1024 .f32) (r : Fin 1024) :
    multiReduction (F := Ideal) .minimumf [1] S1024 X 0x7F800000#32 reduces_S1024x1024_S1024 (.inl rfl) rfl (ix1 r)
      = Finset.univ.inf fun c : Fin 1024 => X (ix2 r c) := by
  refine (multiReduction_minimumf_eq_fold X _ reduces_S1024x1024_S1024 _ _ (ix1 r)).trans ?_
  refine (reduces_S1024x1024_S1024.fold_filter_drop_single _ _ X (ix1 r)).trans ?_
  refine Eq.trans ?_ (fold_min_eq_inf Finset.univ fun c : Fin 1024 => X (ix2 r c))
  refine congrArg (fun f => Finset.fold min (Ideal.ofBits .f32 0x7F800000#32) f Finset.univ) (funext fun c => congrArg X ?_)
  funext ax
  match ax with
  | ⟨0, _⟩ => exact Fin.ext rfl
  | ⟨1, _⟩ => exact Fin.ext rfl

/-- The minimum over the row axis of a tile, at c: the infimum over r of the tile at (r, c). -/
theorem colMin_apply (X : FVec Ideal S1024x1024 .f32) (c : Fin 1024) :
    multiReduction (F := Ideal) .minimumf [0] S1024 X 0x7F800000#32 reduces_S1024x1024_S1024_2 (.inl rfl) rfl (ix1 c)
      = Finset.univ.inf fun r : Fin 1024 => X (ix2 r c) := by
  refine (multiReduction_minimumf_eq_fold X _ reduces_S1024x1024_S1024_2 _ _ (ix1 c)).trans ?_
  refine (reduces_S1024x1024_S1024_2.fold_filter_drop_single _ _ X (ix1 c)).trans ?_
  refine Eq.trans ?_ (fold_min_eq_inf Finset.univ fun r : Fin 1024 => X (ix2 r c))
  refine congrArg (fun f => Finset.fold min (Ideal.ofBits .f32 0x7F800000#32) f Finset.univ) (funext fun r => congrArg X ?_)
  funext ax
  match ax with
  | ⟨0, _⟩ => exact Fin.ext rfl
  | ⟨1, _⟩ => exact Fin.ext rfl

/-- The slab of the running row minima after this tile: the old entry lowered by the tile's row minimum. -/
theorem pay2_apply (xg xp : Vec Ideal S1x3x1024 .f32) (old : Vec Ideal S1x1024 .f32) (r : Fin 1024) :
    k0_pay2 (F := Ideal) (k0_pay9 xg xp) (k0_pay10 xp) (k0_pay11 xg) old (ix2 (0 : Fin 1) r)
      = min (old (ix2 (0 : Fin 1) r)) (Finset.univ.inf fun c : Fin 1024 => blockPd xg xp r c) := by
  unfold k0_pay2
  refine (congrFun (shapeCast_self _ _) _).trans ?_
  refine congrArg (min (old (ix2 (0 : Fin 1) r))) ?_
  refine (shapeCast_a_1a_apply _ _ 0 r).trans ?_
  refine (rowMin_apply _ r).trans ?_
  exact congrArg (Finset.inf Finset.univ) (funext fun c => pay1_apply xg xp r c)

/-- The slab of the running column minima after this tile: the old entry lowered by the tile's column minimum. -/
theorem pay3_apply (xg xp : Vec Ideal S1x3x1024 .f32) (old : Vec Ideal S1x1024 .f32) (c : Fin 1024) :
    k0_pay3 (F := Ideal) (k0_pay9 xg xp) (k0_pay10 xp) (k0_pay11 xg) old (ix2 (0 : Fin 1) c)
      = min (old (ix2 (0 : Fin 1) c)) (Finset.univ.inf fun r : Fin 1024 => blockPd xg xp r c) := by
  unfold k0_pay3
  refine (congrFun (shapeCast_self _ _) _).trans ?_
  refine congrArg (min (old (ix2 (0 : Fin 1) c))) ?_
  refine (shapeCast_a_1a_apply _ _ 0 c).trans ?_
  refine (colMin_apply _ c).trans ?_
  exact congrArg (Finset.inf Finset.univ) (funext fun r => pay1_apply xg xp r c)

/-! ## The total of a running-minimum vector -/

/-- The indices of a [1, 1, 4096] array are its last coordinates. -/
def idxEquiv114096 : Fin 4096 ≃ S1x1x4096.Idx where
  toFun n := ix3 (0 : Fin 1) (0 : Fin 1) n
  invFun i := i 2
  left_inv n := rfl
  right_inv i := by
    funext a
    match a with
    | ⟨0, _⟩ => exact Subsingleton.elim (α := Fin 1) _ _
    | ⟨1, _⟩ => exact Subsingleton.elim (α := Fin 1) _ _
    | ⟨2, _⟩ => rfl

/-- The sum over both trailing axes of a [1, 4096] array seen as [1, 1, 4096]: the sum of its 4096 entries. -/
theorem totalSum_apply (v : Vec Ideal S1x4096 .f32) (k : S1.Idx) :
    multiReduction (F := Ideal) .add [1, 2] S1 (shapeCast S1x1x4096 v shapeCasts_S1x4096_S1x1x4096) 0x00000000#32
        reduces_S1x1x4096_S1 (.inl rfl) rfl k = ∑ n : Fin 4096, v (ix2 (0 : Fin 1) n) := by
  refine (Ideal.multiReduction_add_total _ _ reduces_S1x1x4096_S1 (fun b => ?_) _ _ k).trans ?_
  · match b with
    | ⟨0, _⟩ => rfl
  · refine (Equiv.sum_comp idxEquiv114096 _).symm.trans ?_
    exact Finset.sum_congr rfl fun n _ => shapeCast_ab_1ab_apply v shapeCasts_S1x4096_S1x1x4096 0 0 n

/-- The output block: every lane holds the sum of the row minima plus the sum of the column minima. -/
theorem pay4_apply (a b : Vec Ideal S1x4096 .f32) (j : S1x1x128.Idx) :
    k0_pay4 (F := Ideal) a b j = (∑ n : Fin 4096, a (ix2 (0 : Fin 1) n)) + (∑ m : Fin 4096, b (ix2 (0 : Fin 1) m)) := by
  unfold k0_pay4
  exact congrArg₂ (· + ·) (totalSum_apply a _) (totalSum_apply b _)

/-- The reset value of either running-minimum vector: +∞ everywhere. -/
theorem pay5_apply (y : S1x4096.Idx) : k0_pay5 (F := Ideal) y = (⊤ : EReal) := by
  unfold k0_pay5
  refine (congrFun (shapeCast_self _ _) y).trans ?_
  exact ofBits_inf

theorem pay6_apply (y : S1x4096.Idx) : k0_pay6 (F := Ideal) y = (⊤ : EReal) := by
  unfold k0_pay6
  refine (congrFun (shapeCast_self _ _) y).trans ?_
  exact ofBits_inf

end Cert.KernelIdeal.ChamferValue

end
-- ==== Proof.KernelPieces.lean ====
/-
  What one grid point leaves in the two running-minimum vectors and in the output block, as functions.

  Each running-minimum vector is a row of 4096 entries.  A grid point overwrites one 1024-wide slab of it (the slab of the
  point's row tile for the row minima, of its column tile for the column minima) with a payload computed from the slab's
  old entries; every other entry keeps its old value.  At a batch entry's first point the old value is the reset value
  (the vector was just filled with it); at its last point the output block is the payload of the two updated vectors.
-/
import proofs.«129924_j19121194402402_1_alg».proof.Proof.Gen.KernelIdeal.Frame
import Idealize.ShloMosaic.Lib.WritesUnit
import Idealize.ShloMosaic.Lib.ValueIdx
import Idealize.ShloMosaic.Lib.Pipeline.Value
import Idealize.ShloMosaic.Lib.Tactic

set_option maxRecDepth 16384

noncomputable section

namespace Cert.KernelIdeal.ChamferValue

open Idealize.ShloMosaic Idealize.ShloMosaic.TcCoe Idealize.ShloMosaic.Tactic Idealize.SL.Sem
open Idealize.ShloMosaic.ValueIdx Cert.KernelIdeal Cert.KernelIdeal.Gen

variable {F : FTy → Type} [FloatOps F]

/-- The 1024 entries of a row vector from position o on. -/
def slab (o : ℕ) (ho : o + 1024 ≤ 4096) (v : Vec F S1x4096 .f32) : Vec F S1x1024 .f32 :=
  fun j => v (ix2 (0 : Fin 1) (⟨o + (j 1).val, by have := idx2_lt1 j; omega⟩ : Fin 4096))

/-- A row vector with the 1024 entries from position o on replaced by w. -/
def updSlab (o : ℕ) (v : Vec F S1x4096 .f32) (w : Vec F S1x1024 .f32) : Vec F S1x4096 .f32 :=
  fun y => if h : o ≤ (y 1).val ∧ (y 1).val < o + 1024 then w (ix2 (0 : Fin 1) (⟨(y 1).val - o, by omega⟩ : Fin 1024)) else v y

/-- The offsets of a whole rectangle of a rank-3 buffer, as a constant function. -/
theorem zeros3 : (![0, 0, 0] : Fin 3 → ℕ) = fun _ => 0 := by
  funext a; match a with | ⟨0, _⟩ => rfl | ⟨1, _⟩ => rfl | ⟨2, _⟩ => rfl

/-- The offsets of a whole rectangle of a rank-2 buffer, as a constant function. -/
theorem zeros2 : (![0, 0] : Fin 2 → ℕ) = fun _ => 0 := by
  funext a; match a with | ⟨0, _⟩ => rfl | ⟨1, _⟩ => rfl

/-- A load of the 1024 entries from position o on, off a row vector read as X, is the slab of X there. -/
theorem ld_slab {off : Fin 2 → ℕ} (o : ℕ) (ho : o + 1024 ≤ 4096) (hoff : off = ![0, o])
    (inb : ∀ a, off a + S1x1024.size a ≤ S1x4096.size a) (X : Vec F S1x4096 .f32) :
    View.ld X (Rect.unit (s := S1x4096) off S1x1024.size inb) = slab o ho X := by
  subst hoff
  funext j
  show X _ = X _
  congr 1
  funext a
  apply Fin.ext
  match a with
  | ⟨0, _⟩ =>
    show 0 + 1 * (j 0).val = 0
    have := idx2_lt0 j
    omega
  | ⟨1, _⟩ =>
    show o + 1 * (j 1).val = o + (j 1).val
    omega

/-- A row vector whose newest store is a 1024-wide piece from position o on: that piece's payload on the slab,
    what the earlier stores left elsewhere. -/
theorem read_cons_slab {κ : Kind} {sp : Space} (v : View sig κ sp S1x4096 .f32) (f : v.ty.Contents (Elt F))
    {off : Fin 2 → ℕ} (o : ℕ) (hoff : off = ![0, o]) (inb : ∀ a, off a + S1x1024.size a ≤ S1x4096.size a)
    (w : Vec F S1x1024 .f32) (L : List (View.Piece (Elt F) S1x4096 .f32)) :
    v.read (Elt F) (v.writes (Elt F) f ((⟨Rect.unit off S1x1024.size inb, w⟩ : View.Piece (Elt F) S1x4096 .f32) :: L))
      = updSlab o (v.read (Elt F) (v.writes (Elt F) f L)) w := by
  funext y
  unfold updSlab
  by_cases h : o ≤ (y 1).val ∧ (y 1).val < o + 1024
  · rw [dif_pos h]
    exact View.read_writes_cons_unit_of_mem v f inb w L y (ix2 (0 : Fin 1) (⟨(y 1).val - o, by omega⟩ : Fin 1024)) hoff
      (Fin.forall_fin_two.mpr ⟨by
        show (y 0).val = 0 + 0
        have := idx2_lt0 y
        omega, by
        show (y 1).val = o + ((y 1).val - o)
        omega⟩)
  · rw [dif_neg h]
    exact View.read_writes_cons_unit_of_not_mem v f inb w L y hoff (1 : Fin 2) (by
      show (y 1).val < o ∨ o + 1024 ≤ (y 1).val
      omega)

/-- A load of the whole rectangle of a whole buffer holding X reads X. -/
theorem readAt_whole_unread {S : Shape} (m : Memref sig .tc .vmem S .f32) (h : m.IsWhole) {off : Fin S.rank → ℕ}
    (hz : off = fun _ => 0) (inb : ∀ a, off a + S.size a ≤ S.size a) (X : Vec F S .f32) :
    View.readAt (Elt F) m.view (Rect.unit off S.size inb).toLoadRect (h.unread X) = X := by
  rw [View.readAt_eq_ld, h.read_unread]
  exact View.ld_unit_zero hz inb X

/-- A buffer whose newest store is a whole-buffer piece reads that piece's payload. -/
theorem read_writes_unit_zero {S : Shape} {κ : Kind} {sp : Space} (v : View sig κ sp S .f32) (f : v.ty.Contents (Elt F))
    {off : Fin S.rank → ℕ} (hz : off = fun _ => 0) (inb : ∀ a, off a + S.size a ≤ S.size a) (w : Vec F S .f32)
    (L : List (View.Piece (Elt F) S .f32)) :
    v.read (Elt F) (v.writes (Elt F) f ((⟨Rect.unit off S.size inb, w⟩ : View.Piece (Elt F) S .f32) :: L)) = w := by
  subst hz
  funext y
  exact View.read_writes_cons_unit_of_mem v f inb w L y y rfl (fun a => (Nat.zero_add _).symm)

/-- A load of the whole rectangle of a buffer reads what the buffer reads. -/
theorem readAt_whole {S : Shape} {κ : Kind} {sp : Space} (v : View sig κ sp S .f32) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld]
  exact View.ld_unit_zero hz inb _

/-- A load of the 1024 entries from position o on reads the slab there of what the buffer reads. -/
theorem readAt_slab {κ : Kind} {sp : Space} (v : View sig κ sp S1x4096 .f32) (f : v.ty.Contents (Elt F))
    {off : Fin 2 → ℕ} (o : ℕ) (ho : o + 1024 ≤ 4096) (hoff : off = ![0, o])
    (inb : ∀ a, off a + S1x1024.size a ≤ S1x4096.size a) :
    v.readAt (Elt F) (Rect.unit (s := S1x4096) off S1x1024.size inb).toLoadRect f = slab o ho (v.read (Elt F) f) := by
  rw [View.readAt_eq_ld]
  exact ld_slab o ho hoff inb _

/-- First point of a batch entry, row minima: the reset vector with the row tile's slab updated from it. -/
theorem sout_A_0 (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x4096 .f32) (harg7 : arg7.IsWhole) (hc0 : cond0_0 i) (hc1 : ¬cond0_1 i)
    (x0 x1 : Vec F S1x3x1024 .f32) (o : ℕ) (ho : o + 1024 ≤ 4096) (hoff : k0_off1 i = ![0, o]) :
    sout0_A_0 c i arg3 harg3 arg4 harg4 arg5 harg5 arg6 harg6 arg7 harg7 hc0 hc1 x0 x1
      = updSlab o (k0_pay5 (F := F)) (k0_pay2 (k0_pay9 x1 x0) (k0_pay10 x0) (k0_pay11 x1) (slab o ho (k0_pay5 (F := F)))) := by
  unfold sout0_A_0 kernelRun0_A
  dsimp only
  sl_unfold_run_names
  rw [read_cons_slab VS0_0 _ o hoff, read_writes_unit_zero VS0_0 _ zeros2,
    readAt_whole_unread arg3 harg3 zeros3, readAt_whole_unread arg4 harg4 zeros3,
    readAt_slab arg6.view _ o ho hoff, read_writes_unit_zero arg6.view _ zeros2]

/-- First point of a batch entry, column minima. -/
theorem sout_A_1 (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x4096 .f32) (harg7 : arg7.IsWhole) (hc0 : cond0_0 i) (hc1 : ¬cond0_1 i)
    (x0 x1 : Vec F S1x3x1024 .f32) (o : ℕ) (ho : o + 1024 ≤ 4096) (hoff : k0_off2 i = ![0, o]) :
    sout0_A_1 c i arg3 harg3 arg4 harg4 arg5 harg5 arg6 harg6 arg7 harg7 hc0 hc1 x0 x1
      = updSlab o (k0_pay6 (F := F)) (k0_pay3 (k0_pay9 x1 x0) (k0_pay10 x0) (k0_pay11 x1) (slab o ho (k0_pay6 (F := F)))) := by
  unfold sout0_A_1 kernelRun0_A
  dsimp only
  sl_unfold_run_names
  rw [read_cons_slab VS0_1 _ o hoff, read_writes_unit_zero VS0_1 _ zeros2,
    readAt_whole_unread arg3 harg3 zeros3, readAt_whole_unread arg4 harg4 zeros3,
    readAt_slab arg7.view _ o ho hoff, read_writes_unit_zero arg7.view _ zeros2]

/-- A middle point, row minima: what the point before left, with the row tile's slab updated. -/
theorem sout_B_0 (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : ¬cond0_1 i)
    (x0 x1 : Vec F S1x3x1024 .f32) (xs0 xs1 : Vec F S1x4096 .f32) (o : ℕ) (ho : o + 1024 ≤ 4096) (hoff : k0_off1 i = ![0, o]) :
    sout0_B_0 c i arg3 harg3 arg4 harg4 arg5 harg5 arg6 harg6 arg7 harg7 hc0 hc1 x0 x1 xs0 xs1
      = updSlab o xs0 (k0_pay2 (k0_pay9 x1 x0) (k0_pay10 x0) (k0_pay11 x1) (slab o ho xs0)) := by
  unfold sout0_B_0 kernelRun0_B
  dsimp only
  sl_unfold_run_names
  rw [read_cons_slab arg6.view _ o hoff, View.writes_nil, harg6.read_unread,
    readAt_whole_unread arg3 harg3 zeros3, readAt_whole_unread arg4 harg4 zeros3,
    readAt_slab arg6.view _ o ho hoff, harg6.read_unread]

/-- A middle point, column minima. -/
theorem sout_B_1 (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : ¬cond0_1 i)
    (x0 x1 : Vec F S1x3x1024 .f32) (xs0 xs1 : Vec F S1x4096 .f32) (o : ℕ) (ho : o + 1024 ≤ 4096) (hoff : k0_off2 i = ![0, o]) :
    sout0_B_1 c i arg3 harg3 arg4 harg4 arg5 harg5 arg6 harg6 arg7 harg7 hc0 hc1 x0 x1 xs0 xs1
      = updSlab o xs1 (k0_pay3 (k0_pay9 x1 x0) (k0_pay10 x0) (k0_pay11 x1) (slab o ho xs1)) := by
  unfold sout0_B_1 kernelRun0_B
  dsimp only
  sl_unfold_run_names
  rw [read_cons_slab arg7.view _ o hoff, View.writes_nil, harg7.read_unread,
    readAt_whole_unread arg3 harg3 zeros3, readAt_whole_unread arg4 harg4 zeros3,
    readAt_slab arg7.view _ o ho hoff, harg7.read_unread]

/-- Last point of a batch entry, row minima: as at a middle point. -/
theorem sout_C_0 (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 x1 : Vec F S1x3x1024 .f32) (xs0 xs1 : Vec F S1x4096 .f32) (o : ℕ) (ho : o + 1024 ≤ 4096) (hoff : k0_off1 i = ![0, o]) :
    sout0_C_0 c i arg3 harg3 arg4 harg4 arg5 harg5 arg6 harg6 arg7 harg7 hc0 hc1 x0 x1 xs0 xs1
      = updSlab o xs0 (k0_pay2 (k0_pay9 x1 x0) (k0_pay10 x0) (k0_pay11 x1) (slab o ho xs0)) := by
  unfold sout0_C_0 kernelRun0_C
  dsimp only
  sl_unfold_run_names
  rw [read_cons_slab arg6.view _ o hoff, View.writes_nil, harg6.read_unread,
    readAt_whole_unread arg3 harg3 zeros3, readAt_whole_unread arg4 harg4 zeros3,
    readAt_slab arg6.view _ o ho hoff, harg6.read_unread]

/-- Last point of a batch entry, column minima. -/
theorem sout_C_1 (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 x1 : Vec F S1x3x1024 .f32) (xs0 xs1 : Vec F S1x4096 .f32) (o : ℕ) (ho : o + 1024 ≤ 4096) (hoff : k0_off2 i = ![0, o]) :
    sout0_C_1 c i arg3 harg3 arg4 harg4 arg5 harg5 arg6 harg6 arg7 harg7 hc0 hc1 x0 x1 xs0 xs1
      = updSlab o xs1 (k0_pay3 (k0_pay9 x1 x0) (k0_pay10 x0) (k0_pay11 x1) (slab o ho xs1)) := by
  unfold sout0_C_1 kernelRun0_C
  dsimp only
  sl_unfold_run_names
  rw [read_cons_slab arg7.view _ o hoff, View.writes_nil, harg7.read_unread,
    readAt_whole_unread arg3 harg3 zeros3, readAt_whole_unread arg4 harg4 zeros3,
    readAt_slab arg7.view _ o ho hoff, harg7.read_unread]

/-- Last point of a batch entry, the output block: the payload of the two vectors as this point leaves them. -/
theorem out_C_2 (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 x1 : Vec F S1x3x1024 .f32) (xs0 xs1 : Vec F S1x4096 .f32) :
    out0_C_2 c i arg3 harg3 arg4 harg4 arg5 harg5 arg6 harg6 arg7 harg7 hc0 hc1 x0 x1 xs0 xs1
      = k0_pay4 (sout0_C_0 c i arg3 harg3 arg4 harg4 arg5 harg5 arg6 harg6 arg7 harg7 hc0 hc1 x0 x1 xs0 xs1) (sout0_C_1 c i arg3 harg3 arg4 harg4 arg5 harg5 arg6 harg6 arg7 harg7 hc0 hc1 x0 x1 xs0 xs1) := by
  unfold out0_C_2 sout0_C_0 sout0_C_1 kernelRun0_C
  dsimp only
  sl_unfold_run_names
  rw [read_writes_unit_zero VO0_2 _ zeros3, readAt_whole arg6.view _ zeros2, readAt_whole arg7.view _ zeros2]

end Cert.KernelIdeal.ChamferValue

end
-- ==== Proof.KernelBlocks.lean ====
/-
  Where the grid's points sit in the arrays.

  Point t of the 16 × 4 × 4 grid is batch entry t / 16, row tile (t % 16) / 4, column tile t % 4.  The block of the
  second-argument cloud (the rows of the distance field) at t is its row tile of that batch entry, the block of the
  first-argument cloud (the columns) is its column tile; the two slabs the body updates start at 1024 times the tile
  numbers; and the output array's row b is written back once, after the last point of batch entry b.
-/
import proofs.«129924_j19121194402402_1_alg».proof.Proof.Gen.KernelIdeal.Frame
import Idealize.ShloMosaic.Lib.ValueIdx
import Idealize.ShloMosaic.Lib.Pipeline.Value

set_option maxRecDepth 16384

noncomputable section

namespace Cert.KernelIdeal.ChamferValue

open Idealize.ShloMosaic Idealize.ShloMosaic.TcCoe Idealize.SL.Sem
open Idealize.ShloMosaic.Pipeline (Dat)
open Idealize.ShloMosaic.ValueIdx Cert.KernelIdeal Cert.KernelIdeal.Gen

variable {F : FTy → Type} [FloatOps F]
variable (m : (ℓ : Loc nD τ sig) → Buf (Elt F) ℓ)

/-- The two clouds as the region finds them, and their blocks at a point, at their literal types. -/
abbrev predsArr (c : Dev nD) : Vec F S16x3x4096 .f32 := V m c main_arg0
abbrev gtsArr (c : Dev nD) : Vec F S16x3x4096 .f32 := V m c main_arg1
abbrev predsBlk (c : Dev nD) (t : Fin cfg0.N) : Vec F S1x3x1024 .f32 := iblk m c 0 t
abbrev gtsBlk (c : Dev nD) (t : Fin cfg0.N) : Vec F S1x3x1024 .f32 := iblk m c 1 t

theorem N_eq : cfg0.N = 256 := N_0

/-- The batch entry, row tile and column tile of a point. -/
def batchOf (t : Fin cfg0.N) : Fin 16 := ⟨t.val / 16, by have h : t.val < 256 := lt_of_lt_of_eq t.isLt N_eq; omega⟩

/-- The row-minima slab of point t starts at 1024 · (row tile). -/
theorem off1_eq (t : Fin cfg0.N) : k0_off1 (grid0.coords t) = ![0, 1024 * (t.val % 16 / 4)] :=
  (by decide +kernel : ∀ t : Fin grid0.N, k0_off1 (grid0.coords t) = ![0, 1024 * (t.val % 16 / 4)]) t

/-- The column-minima slab of point t starts at 1024 · (column tile). -/
theorem off2_eq (t : Fin cfg0.N) : k0_off2 (grid0.coords t) = ![0, 1024 * (t.val % 4)] :=
  (by decide +kernel : ∀ t : Fin grid0.N, k0_off2 (grid0.coords t) = ![0, 1024 * (t.val % 4)]) t

/-- The block index of the first argument's window at point t: (t / 16, 0, t % 4), over the whole grid. -/
theorem index_win0 : ∀ t : Fin cfg0.N, win0_0.index t (0 : Fin 3) = t.val / 16 ∧ win0_0.index t (1 : Fin 3) = 0
    ∧ win0_0.index t (2 : Fin 3) = t.val % 4 :=
  (by decide +kernel : ∀ t : Fin grid0.N, win0_0.index t (0 : Fin 3) = t.val / 16 ∧ win0_0.index t (1 : Fin 3) = 0
    ∧ win0_0.index t (2 : Fin 3) = t.val % 4)

/-- The block index of the second argument's window at point t: (t / 16, 0, (t % 16) / 4). -/
theorem index_win1 : ∀ t : Fin cfg0.N, win0_1.index t (0 : Fin 3) = t.val / 16 ∧ win0_1.index t (1 : Fin 3) = 0
    ∧ win0_1.index t (2 : Fin 3) = t.val % 16 / 4 :=
  (by decide +kernel : ∀ t : Fin grid0.N, win0_1.index t (0 : Fin 3) = t.val / 16 ∧ win0_1.index t (1 : Fin 3) = 0
    ∧ win0_1.index t (2 : Fin 3) = t.val % 16 / 4)

/-- The block index of the output's window at point t: (t / 16, 0, 0). -/
theorem index_win2 : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-- The first argument's block at t is column tile t % 4 of batch entry t / 16. -/
theorem predsBlk_apply (c : Dev nD) (t : Fin cfg0.N) (d : Fin 3) (j : Fin 1024) :
    predsBlk m c t (ix3 (0 : Fin 1) d j)
      = predsArr m c (ix3 (batchOf t) d (⟨1024 * (t.val % 4) + j.val, by have := j.isLt; omega⟩ : Fin 4096)) := by
  obtain ⟨e0, e1, e2⟩ := index_win0 t
  show iblk m c 0 t _ = V m c main_arg0 _
  unfold iblk
  rw [View.read_apply]
  show V m c main_arg0 _ = V m c main_arg0 _
  congr 1
  funext a
  apply Fin.ext
  -- on every axis the array coordinate is (block index) · (block size) + (coordinate inside the block)
  match a with
  | ⟨0, _⟩ => show win0_0.index t (0 : Fin 3) * 1 + 1 * 0 = t.val / 16; omega
  | ⟨1, _⟩ => show win0_0.index t (1 : Fin 3) * 3 + 1 * d.val = d.val; omega
  | ⟨2, _⟩ => show win0_0.index t (2 : Fin 3) * 1024 + 1 * j.val = 1024 * (t.val % 4) + j.val; omega

/-- The second argument's block at t is row tile (t % 16) / 4 of batch entry t / 16. -/
theorem gtsBlk_apply (c : Dev nD) (t : Fin cfg0.N) (d : Fin 3) (j : Fin 1024) :
    gtsBlk m c t (ix3 (0 : Fin 1) d j)
      = gtsArr m c (ix3 (batchOf t) d (⟨1024 * (t.val % 16 / 4) + j.val, by have := j.isLt; omega⟩ : Fin 4096)) := by
  obtain ⟨e0, e1, e2⟩ := index_win1 t
  show iblk m c 1 t _ = V m c main_arg1 _
  unfold iblk
  rw [View.read_apply]
  show V m c main_arg1 _ = V m c main_arg1 _
  congr 1
  funext a
  apply Fin.ext
  match a with
  | ⟨0, _⟩ => show win0_1.index t (0 : Fin 3) * 1 + 1 * 0 = t.val / 16; omega
  | ⟨1, _⟩ => show win0_1.index t (1 : Fin 3) * 3 + 1 * d.val = d.val; omega
  | ⟨2, _⟩ => show win0_1.index t (2 : Fin 3) * 1024 + 1 * j.val = 1024 * (t.val % 16 / 4) + j.val; omega

/-- The output array after the run: if the last point of every batch entry leaves one number in every lane of the
    output block, row b of the array holds batch entry b's number. -/
theorem final_out (c : Dev nD) (val : Fin 16 → F .f32)
    (h : ∀ t : Fin cfg0.N, t.val % 16 = 15 → (outsAt0 m c t.val t.isLt).1 = fun _ => val (batchOf t))
    (b : Fin 16) (z : Fin 1) (l : Fin 128) :
    ((dats m 0 c).arrAt 2 cfg0.N : Vec F S16x1x128 .f32) (ix3 b z l) = val b := by
  -- the whole array ends as the function "row i₀ holds val i₀": every write-back writes its block of that function,
  -- and the blocks written back (one per batch entry) cover the array
  have key : (dats m 0 c).arrAt 2 cfg0.N = (fun i => val (i 0) : Vec F S16x1x128 .f32) := by
    refine (dats m 0 c).arrAt_eq_of_cover 2 (fun i => val (i 0) : Vec F S16x1x128 .f32) ?_ ?_
    · intro t hf
      have h15 : t.val % 16 = 15 := (flush0_2 t).mp hf
      obtain ⟨e0, e1, e2⟩ := index_win2 t
      show (cfg0.win 2).cut (grid0.coords t) ((dats m 0 c).after 2 t) = _
      rw [after0_2, h t h15]
      funext y
      rw [View.read_apply]
      show val (batchOf t) = val _
      congr 1
      apply Fin.ext
      show t.val / 16 = win0_2.index t (0 : Fin 3) * 1 + 1 * (y 0).val
      have hy : (y 0).val < 1 := (y 0).isLt
      omega
    · intro i
      have hi0 : (i 0).val < 16 := (i 0).isLt
      have hi1 : (i 1).val < 1 := (i 1).isLt
      have hi2 : (i 2).val < 128 := (i 2).isLt
      have hN : cfg0.N = 256 := N_eq
      -- row i₀ lies in the block of the last point of batch entry i₀
      let t : Fin cfg0.N := ⟨16 * (i 0).val + 15, by omega⟩
      have ht : t.val = 16 * (i 0).val + 15 := rfl
      obtain ⟨e0, e1, e2⟩ := index_win2 t
      refine ⟨t, (flush0_2 t).mpr (by omega), ?_⟩
      show i ∈ ((View.whole main_v0).slice (win0_2.rect t)).set
      rw [View.set_slice_whole, Rect.mem_set_unit]
      intro a
      match a with
      | ⟨0, _⟩ => show win0_2.index t (0 : Fin 3) * 1 ≤ (i 0).val ∧ (i 0).val < win0_2.index t (0 : Fin 3) * 1 + 1; omega
      | ⟨1, _⟩ => show win0_2.index t (1 : Fin 3) * 1 ≤ (i 1).val ∧ (i 1).val < win0_2.index t (1 : Fin 3) * 1 + 1; omega
      | ⟨2, _⟩ => show win0_2.index t (2 : Fin 3) * 128 ≤ (i 2).val ∧ (i 2).val < win0_2.index t (2 : Fin 3) * 128 + 128; omega
  rw [key]

end Cert.KernelIdeal.ChamferValue

end
-- ==== Proof.KernelInvariant.lean ====
/-
  The running minima after every grid point, and the output block at a batch entry's last point.

  Within batch entry b the sixteen tiles of the distance field are visited in order s = 0 … 15.  After the tile numbered
  s the row-minima vector holds, at row n, the minimum of row n of the field over the columns of the tiles visited so
  far, and the column-minima vector the same for columns: by induction on the point.  The first point of a batch entry
  starts from +∞ (nothing visited), a later one from what the point before left; either way one slab is lowered by the
  new tile's row (column) minima, which is one more tile visited.  After the sixteenth tile both vectors hold the full
  minima, and the output block's every lane is their two sums added.
-/
import proofs.«129924_j19121194402402_1_alg».proof.Proof.ChamferSpec
import proofs.«129924_j19121194402402_1_alg».proof.Proof.KernelPayloads
import proofs.«129924_j19121194402402_1_alg».proof.Proof.KernelPieces
import proofs.«129924_j19121194402402_1_alg».proof.Proof.KernelBlocks

set_option maxRecDepth 16384

noncomputable section

open scoped BigOperators

namespace Cert.KernelIdeal.ChamferValue

open Idealize.ShloMosaic Idealize.ShloMosaic.TcCoe Idealize.SL.Sem
open Idealize.ShloMosaic.ValueIdx Cert.KernelIdeal Cert.KernelIdeal.Gen Cert.Chamfer

variable (m : (ℓ : Loc nD τ sig) → Buf (Elt Ideal) ℓ)

/-- The distance field of batch entry b over the two clouds as the region finds them. -/
def field (c : Dev nD) (b : Fin 16) : Fin 4096 → Fin 4096 → EReal := pd (gtsArr m c) (predsArr m c) b

/-- The running row (column) minima after k tiles, laid out as the kernel's [1, 4096] vectors. -/
def rowVec (Q : Fin 4096 → Fin 4096 → EReal) (k : ℕ) : Vec Ideal S1x4096 .f32 :=
  fun y => rowAcc Q k (⟨(y 1).val, idx2_lt1 y⟩ : Fin 4096)
def colVec (Q : Fin 4096 → Fin 4096 → EReal) (k : ℕ) : Vec Ideal S1x4096 .f32 :=
  fun y => colAcc Q k (⟨(y 1).val, idx2_lt1 y⟩ : Fin 4096)

theorem row_ok (t : Fin cfg0.N) : 1024 * (t.val % 16 / 4) + 1024 ≤ 4096 := by omega
theorem col_ok (t : Fin cfg0.N) : 1024 * (t.val % 4) + 1024 ≤ 4096 := by omega

/-- The tile of squared distances the body forms at point t is tile (row tile, column tile) of the batch entry's field. -/
theorem blockPd_blocks (c : Dev nD) (t : Fin cfg0.N) (r cc : Fin 1024) :
    blockPd (gtsBlk m c t) (predsBlk m c t) r cc
      = field m c (batchOf t) (inTile (t.val % 16 / 4) (by omega) r) (inTile (t.val % 4) (by omega) cc) := by
  unfold blockPd field pd inTile
  simp only [gtsBlk_apply, predsBlk_apply]

/-- One more tile visited, rows, for any blocks whose tile of squared distances is tile s of the field Q: the slab of
    row tile s / 4 is lowered by the tile's row minima. -/
theorem row_step_gen (Q : Fin 4096 → Fin 4096 → EReal) (s : ℕ) (hs : s < 16) (xg xp : Vec Ideal S1x3x1024 .f32)
    (hblk : ∀ r cc : Fin 1024, blockPd xg xp r cc = Q (inTile (s / 4) (by omega) r) (inTile (s % 4) (by omega) cc))
    (o : ℕ) (ho : o + 1024 ≤ 4096) (hoe : o = 1024 * (s / 4)) :
    updSlab o (rowVec Q s) (k0_pay2 (F := Ideal) (k0_pay9 xg xp) (k0_pay10 xp) (k0_pay11 xg) (slab o ho (rowVec Q s)))
      = rowVec Q (s + 1) := by
  subst hoe
  funext y
  obtain ⟨z, n, rfl⟩ : ∃ (z : Fin 1) (n : Fin 4096), y = ix2 z n := ⟨y 0, y 1, eq_ix2 y⟩
  obtain rfl : z = 0 := Subsingleton.elim _ _
  have hn : n.val < 4096 := n.isLt
  unfold updSlab
  show (if h : 1024 * (s / 4) ≤ n.val ∧ n.val < 1024 * (s / 4) + 1024 then _ else _) = rowAcc Q (s + 1) n
  rw [rowAcc_succ Q s hs n]
  by_cases h : 1024 * (s / 4) ≤ n.val ∧ n.val < 1024 * (s / 4) + 1024
  · rw [dif_pos h, if_pos (show tileOf n = s / 4 by unfold tileOf; omega)]
    rw [pay2_apply]
    congr 1
    · show rowAcc Q s _ = rowAcc Q s n
      congr 1
      apply Fin.ext
      show 1024 * (s / 4) + (n.val - 1024 * (s / 4)) = n.val
      omega
    · refine Finset.inf_congr rfl fun cc _ => ?_
      rw [hblk]
      congr 1
      apply Fin.ext
      show 1024 * (s / 4) + (n.val - 1024 * (s / 4)) = n.val
      omega
  · rw [dif_neg h, if_neg (show ¬ tileOf n = s / 4 by unfold tileOf; omega)]
    rfl

/-- One more tile visited, columns: the slab of column tile s % 4 is lowered by the tile's column minima. -/
theorem col_step_gen (Q : Fin 4096 → Fin 4096 → EReal) (s : ℕ) (hs : s < 16) (xg xp : Vec Ideal S1x3x1024 .f32)
    (hblk : ∀ r cc : Fin 1024, blockPd xg xp r cc = Q (inTile (s / 4) (by omega) r) (inTile (s % 4) (by omega) cc))
    (o : ℕ) (ho : o + 1024 ≤ 4096) (hoe : o = 1024 * (s % 4)) :
    updSlab o (colVec Q s) (k0_pay3 (F := Ideal) (k0_pay9 xg xp) (k0_pay10 xp) (k0_pay11 xg) (slab o ho (colVec Q s)))
      = colVec Q (s + 1) := by
  subst hoe
  funext y
  obtain ⟨z, n, rfl⟩ : ∃ (z : Fin 1) (n : Fin 4096), y = ix2 z n := ⟨y 0, y 1, eq_ix2 y⟩
  obtain rfl : z = 0 := Subsingleton.elim _ _
  have hn : n.val < 4096 := n.isLt
  unfold updSlab
  show (if h : 1024 * (s % 4) ≤ n.val ∧ n.val < 1024 * (s % 4) + 1024 then _ else _) = colAcc Q (s + 1) n
  rw [colAcc_succ Q s hs n]
  by_cases h : 1024 * (s % 4) ≤ n.val ∧ n.val < 1024 * (s % 4) + 1024
  · rw [dif_pos h, if_pos (show tileOf n = s % 4 by unfold tileOf; omega)]
    rw [pay3_apply]
    congr 1
    · show colAcc Q s _ = colAcc Q s n
      congr 1
      apply Fin.ext
      show 1024 * (s % 4) + (n.val - 1024 * (s % 4)) = n.val
      omega
    · refine Finset.inf_congr rfl fun r _ => ?_
      rw [hblk]
      congr 1
      apply Fin.ext
      show 1024 * (s % 4) + (n.val - 1024 * (s % 4)) = n.val
      omega
  · rw [dif_neg h, if_neg (show ¬ tileOf n = s % 4 by unfold tileOf; omega)]
    rfl

/-- The blocks at point t are tile t % 16 of the point's batch entry. -/
theorem blocks_tile (c : Dev nD) (t : Fin cfg0.N) (r cc : Fin 1024) :
    blockPd (gtsBlk m c t) (predsBlk m c t) r cc
      = field m c (batchOf t) (inTile (t.val % 16 / 4) (by omega) r) (inTile (t.val % 16 % 4) (by omega) cc) := by
  rw [blockPd_blocks]
  congr 1
  apply Fin.ext
  show 1024 * (t.val % 4) + cc.val = 1024 * (t.val % 16 % 4) + cc.val
  omega

theorem row_step (c : Dev nD) (t : Fin cfg0.N) (old : Vec Ideal S1x4096 .f32)
    (hold : old = rowVec (field m c (batchOf t)) (t.val % 16)) :
    updSlab (1024 * (t.val % 16 / 4)) old (k0_pay2 (F := Ideal) (k0_pay9 (gtsBlk m c t) (predsBlk m c t)) (k0_pay10 (predsBlk m c t)) (k0_pay11 (gtsBlk m c t)) (slab (1024 * (t.val % 16 / 4)) (row_ok t) old))
      = rowVec (field m c (batchOf t)) (t.val % 16 + 1) := by
  subst hold
  exact row_step_gen (field m c (batchOf t)) (t.val % 16) (Nat.mod_lt _ (by decide)) (gtsBlk m c t) (predsBlk m c t)
    (blocks_tile m c t) (1024 * (t.val % 16 / 4)) (row_ok t) rfl

theorem col_step (c : Dev nD) (t : Fin cfg0.N) (old : Vec Ideal S1x4096 .f32)
    (hold : old = colVec (field m c (batchOf t)) (t.val % 16)) :
    updSlab (1024 * (t.val % 4)) old (k0_pay3 (F := Ideal) (k0_pay9 (gtsBlk m c t) (predsBlk m c t)) (k0_pay10 (predsBlk m c t)) (k0_pay11 (gtsBlk m c t)) (slab (1024 * (t.val % 4)) (col_ok t) old))
      = colVec (field m c (batchOf t)) (t.val % 16 + 1) := by
  subst hold
  exact col_step_gen (field m c (batchOf t)) (t.val % 16) (Nat.mod_lt _ (by decide)) (gtsBlk m c t) (predsBlk m c t)
    (blocks_tile m c t) (1024 * (t.val % 4)) (col_ok t) (by omega)

/-- The reset vectors are the running minima with nothing visited. -/
theorem reset_row (Q : Fin 4096 → Fin 4096 → EReal) : (k0_pay5 (F := Ideal)) = rowVec Q 0 := by
  funext y; unfold rowVec; rw [rowAcc_zero]; exact pay5_apply y
theorem reset_col (Q : Fin 4096 → Fin 4096 → EReal) : (k0_pay6 (F := Ideal)) = colVec Q 0 := by
  funext y; unfold colVec; rw [colAcc_zero]; exact pay6_apply y

/-! ## What each case of the body leaves, at a point of the grid -/

theorem outs_A_row (c : Dev nD) (t : Fin cfg0.N) (h0 : t.val % 16 = 0) (h1 : ¬t.val % 16 = 15) :
    (outsAt0 m c t.val t.isLt).2.1 = updSlab (1024 * (t.val % 16 / 4)) (k0_pay5 (F := Ideal)) (k0_pay2 (F := Ideal) (k0_pay9 (gtsBlk m c t) (predsBlk m c t)) (k0_pay10 (predsBlk m c t)) (k0_pay11 (gtsBlk m c t)) (slab (1024 * (t.val % 16 / 4)) (row_ok t) (k0_pay5 (F := Ideal)))) := by
  rw [outsAt0_A m c t h0 h1]; dsimp only
  exact sout_A_0 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t) (1024 * (t.val % 16 / 4)) (row_ok t) (off1_eq t)

theorem outs_A_col (c : Dev nD) (t : Fin cfg0.N) (h0 : t.val % 16 = 0) (h1 : ¬t.val % 16 = 15) :
    (outsAt0 m c t.val t.isLt).2.2 = updSlab (1024 * (t.val % 4)) (k0_pay6 (F := Ideal)) (k0_pay3 (F := Ideal) (k0_pay9 (gtsBlk m c t) (predsBlk m c t)) (k0_pay10 (predsBlk m c t)) (k0_pay11 (gtsBlk m c t)) (slab (1024 * (t.val % 4)) (col_ok t) (k0_pay6 (F := Ideal)))) := by
  rw [outsAt0_A m c t h0 h1]; dsimp only
  exact sout_A_1 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t) (1024 * (t.val % 4)) (col_ok t) (off2_eq t)

theorem outs_B_row (c : Dev nD) (t : Fin cfg0.N) (h0 : ¬t.val % 16 = 0) (h1 : ¬t.val % 16 = 15) :
    (outsAt0 m c t.val t.isLt).2.1 = updSlab (1024 * (t.val % 16 / 4)) (outsAt0 m c (t.val - 1) (Nat.lt_of_le_of_lt (Nat.sub_le _ _) t.isLt)).2.1 (k0_pay2 (F := Ideal) (k0_pay9 (gtsBlk m c t) (predsBlk m c t)) (k0_pay10 (predsBlk m c t)) (k0_pay11 (gtsBlk m c t)) (slab (1024 * (t.val % 16 / 4)) (row_ok t) (outsAt0 m c (t.val - 1) (Nat.lt_of_le_of_lt (Nat.sub_le _ _) t.isLt)).2.1)) := by
  rw [outsAt0_B m c t h0 h1]; dsimp only
  exact sout_B_0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (1024 * (t.val % 16 / 4)) (row_ok t) (off1_eq t)

theorem outs_B_col (c : Dev nD) (t : Fin cfg0.N) (h0 : ¬t.val % 16 = 0) (h1 : ¬t.val % 16 = 15) :
    (outsAt0 m c t.val t.isLt).2.2 = updSlab (1024 * (t.val % 4)) (outsAt0 m c (t.val - 1) (Nat.lt_of_le_of_lt (Nat.sub_le _ _) t.isLt)).2.2 (k0_pay3 (F := Ideal) (k0_pay9 (gtsBlk m c t) (predsBlk m c t)) (k0_pay10 (predsBlk m c t)) (k0_pay11 (gtsBlk m c t)) (slab (1024 * (t.val % 4)) (col_ok t) (outsAt0 m c (t.val - 1) (Nat.lt_of_le_of_lt (Nat.sub_le _ _) t.isLt)).2.2)) := by
  rw [outsAt0_B m c t h0 h1]; dsimp only
  exact sout_B_1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (1024 * (t.val % 4)) (col_ok t) (off2_eq t)

theorem outs_C_row (c : Dev nD) (t : Fin cfg0.N) (h0 : ¬t.val % 16 = 0) (h1 : t.val % 16 = 15) :
    (outsAt0 m c t.val t.isLt).2.1 = updSlab (1024 * (t.val % 16 / 4)) (outsAt0 m c (t.val - 1) (Nat.lt_of_le_of_lt (Nat.sub_le _ _) t.isLt)).2.1 (k0_pay2 (F := Ideal) (k0_pay9 (gtsBlk m c t) (predsBlk m c t)) (k0_pay10 (predsBlk m c t)) (k0_pay11 (gtsBlk m c t)) (slab (1024 * (t.val % 16 / 4)) (row_ok t) (outsAt0 m c (t.val - 1) (Nat.lt_of_le_of_lt (Nat.sub_le _ _) t.isLt)).2.1)) := by
  rw [outsAt0_C m c t h0 h1]; dsimp only
  exact sout_C_0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (1024 * (t.val % 16 / 4)) (row_ok t) (off1_eq t)

theorem outs_C_col (c : Dev nD) (t : Fin cfg0.N) (h0 : ¬t.val % 16 = 0) (h1 : t.val % 16 = 15) :
    (outsAt0 m c t.val t.isLt).2.2 = updSlab (1024 * (t.val % 4)) (outsAt0 m c (t.val - 1) (Nat.lt_of_le_of_lt (Nat.sub_le _ _) t.isLt)).2.2 (k0_pay3 (F := Ideal) (k0_pay9 (gtsBlk m c t) (predsBlk m c t)) (k0_pay10 (predsBlk m c t)) (k0_pay11 (gtsBlk m c t)) (slab (1024 * (t.val % 4)) (col_ok t) (outsAt0 m c (t.val - 1) (Nat.lt_of_le_of_lt (Nat.sub_le _ _) t.isLt)).2.2)) := by
  rw [outsAt0_C m c t h0 h1]; dsimp only
  exact sout_C_1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (1024 * (t.val % 4)) (col_ok t) (off2_eq t)

/-- The output block at a batch entry's last point is the payload of the two vectors that point leaves. -/
theorem outs_C_out (c : Dev nD) (t : Fin cfg0.N) (h0 : ¬t.val % 16 = 0) (h1 : t.val % 16 = 15) :
    (outsAt0 m c t.val t.isLt).1 = k0_pay4 (F := Ideal) (outsAt0 m c t.val t.isLt).2.1 (outsAt0 m c t.val t.isLt).2.2 := by
  rw [outsAt0_C m c t h0 h1]; dsimp only
  exact out_C_2 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-! ## The invariant -/

/-- After point n the two vectors hold the running minima of the point's batch entry over the tiles visited so far. -/
theorem scratch_inv (c : Dev nD) : ∀ (n : ℕ) (h : n < cfg0.N),
    (outsAt0 m c n h).2.1 = rowVec (field m c (batchOf ⟨n, h⟩)) (n % 16 + 1)
      ∧ (outsAt0 m c n h).2.2 = colVec (field m c (batchOf ⟨n, h⟩)) (n % 16 + 1) := by
  intro n
  induction n with
  | zero =>
    intro h
    have h0 : (⟨0, h⟩ : Fin cfg0.N).val % 16 = 0 := rfl
    have h1 : ¬(⟨0, h⟩ : Fin cfg0.N).val % 16 = 15 := by show ¬ 0 % 16 = 15; decide
    refine ⟨?_, ?_⟩
    · rw [show outsAt0 m c 0 h = outsAt0 m c (⟨0, h⟩ : Fin cfg0.N).val (⟨0, h⟩ : Fin cfg0.N).isLt from rfl, outs_A_row m c ⟨0, h⟩ h0 h1]
      exact row_step m c ⟨0, h⟩ _ (reset_row _)
    · rw [show outsAt0 m c 0 h = outsAt0 m c (⟨0, h⟩ : Fin cfg0.N).val (⟨0, h⟩ : Fin cfg0.N).isLt from rfl, outs_A_col m c ⟨0, h⟩ h0 h1]
      exact col_step m c ⟨0, h⟩ _ (reset_col _)
  | succ n ih =>
    intro h
    have hN : n + 1 < 256 := lt_of_lt_of_eq h N_eq
    have ihn := ih (Nat.lt_of_succ_lt h)
    by_cases h0 : (n + 1) % 16 = 0
    · have h1 : ¬(n + 1) % 16 = 15 := by omega
      refine ⟨?_, ?_⟩
      · rw [show outsAt0 m c (n + 1) h = outsAt0 m c (⟨n + 1, h⟩ : Fin cfg0.N).val (⟨n + 1, h⟩ : Fin cfg0.N).isLt from rfl, outs_A_row m c ⟨n + 1, h⟩ h0 h1]
        refine (row_step m c ⟨n + 1, h⟩ _ ?_).trans rfl
        rw [show (⟨n + 1, h⟩ : Fin cfg0.N).val % 16 = 0 from h0]
        exact reset_row _
      · rw [show outsAt0 m c (n + 1) h = outsAt0 m c (⟨n + 1, h⟩ : Fin cfg0.N).val (⟨n + 1, h⟩ : Fin cfg0.N).isLt from rfl, outs_A_col m c ⟨n + 1, h⟩ h0 h1]
        refine (col_step m c ⟨n + 1, h⟩ _ ?_).trans rfl
        rw [show (⟨n + 1, h⟩ : Fin cfg0.N).val % 16 = 0 from h0]
        exact reset_col _
    · have hb : batchOf (⟨n, Nat.lt_of_succ_lt h⟩ : Fin cfg0.N) = batchOf (⟨n + 1, h⟩ : Fin cfg0.N) := by
        apply Fin.ext; show n / 16 = (n + 1) / 16; omega
      have hs : n % 16 + 1 = (n + 1) % 16 := by omega
      by_cases h1 : (n + 1) % 16 = 15
      · refine ⟨?_, ?_⟩
        · rw [show outsAt0 m c (n + 1) h = outsAt0 m c (⟨n + 1, h⟩ : Fin cfg0.N).val (⟨n + 1, h⟩ : Fin cfg0.N).isLt from rfl, outs_C_row m c ⟨n + 1, h⟩ h0 h1]
          refine (row_step m c ⟨n + 1, h⟩ _ ?_).trans rfl
          show (outsAt0 m c n _).2.1 = _
          rw [ihn.1, hb, hs]
        · rw [show outsAt0 m c (n + 1) h = outsAt0 m c (⟨n + 1, h⟩ : Fin cfg0.N).val (⟨n + 1, h⟩ : Fin cfg0.N).isLt from rfl, outs_C_col m c ⟨n + 1, h⟩ h0 h1]
          refine (col_step m c ⟨n + 1, h⟩ _ ?_).trans rfl
          show (outsAt0 m c n _).2.2 = _
          rw [ihn.2, hb, hs]
      · refine ⟨?_, ?_⟩
        · rw [show outsAt0 m c (n + 1) h = outsAt0 m c (⟨n + 1, h⟩ : Fin cfg0.N).val (⟨n + 1, h⟩ : Fin cfg0.N).isLt from rfl, outs_B_row m c ⟨n + 1, h⟩ h0 h1]
          refine (row_step m c ⟨n + 1, h⟩ _ ?_).trans rfl
          show (outsAt0 m c n _).2.1 = _
          rw [ihn.1, hb, hs]
        · rw [show outsAt0 m c (n + 1) h = outsAt0 m c (⟨n + 1, h⟩ : Fin cfg0.N).val (⟨n + 1, h⟩ : Fin cfg0.N).isLt from rfl, outs_B_col m c ⟨n + 1, h⟩ h0 h1]
          refine (col_step m c ⟨n + 1, h⟩ _ ?_).trans rfl
          show (outsAt0 m c n _).2.2 = _
          rw [ihn.2, hb, hs]

/-- At a batch entry's last point every lane of the output block holds the entry's Chamfer sum. -/
theorem out_last (c : Dev nD) (t : Fin cfg0.N) (h15 : t.val % 16 = 15) :
    (outsAt0 m c t.val t.isLt).1 = fun _ => batchOut (field m c (batchOf t)) := by
  have h0 : ¬t.val % 16 = 0 := by omega
  rw [outs_C_out m c t h0 h15]
  obtain ⟨hr, hc⟩ := scratch_inv m c t.val t.isLt
  rw [hr, hc, show t.val % 16 + 1 = 16 by omega]
  funext j
  rw [pay4_apply]
  unfold batchOut rowVec colVec
  simp only [rowAcc_sixteen, colAcc_sixteen]

end Cert.KernelIdeal.ChamferValue

end
-- ==== Proof.KernelFinal.lean ====
/-
  The kernel's result.

  After the region the output array holds, in every lane of row b, batch entry b's Chamfer sum.  The host then takes lane 0
  of every row, adds the sixteen numbers up from zero, and adds the closing term computed from the two small arguments.
-/
import proofs.«129924_j19121194402402_1_alg».proof.Proof.KernelInvariant
import Idealize.ShloMosaic.Lib.StableHlo.Run
import Idealize.ShloMosaic.Lib.Pipeline.Value
import Idealize.ShloMosaic.Lib.Tactic

set_option maxRecDepth 16384

noncomputable section

open scoped BigOperators

namespace Cert.KernelIdeal.ChamferValue

open Idealize.ShloMosaic Idealize.ShloMosaic.TcCoe Idealize.SL.Sem Idealize.ShloMosaic.StableHlo
open Idealize.ShloMosaic.ValueIdx Cert.KernelIdeal Cert.KernelIdeal.Gen Cert.Chamfer

variable (m : (ℓ : Loc nD τ sig) → Buf (Elt Ideal) ℓ) (ρ : Dev nD → PrngReg)

/-- The host's closing term, a function of the two small arguments only: −½ · Σ (1 + lv − mu² − exp lv), as the host's
    operations spell it. -/
def klTail (mu lv : FVec Ideal S16x128 .f32) : FVec Ideal S_ .f32 :=
  mulf (constant (F := Ideal) S_ .f32 0xBF000000#32)
    (Host.reduceAdd (F := Ideal) (subf (subf (addf (broadcastInDim S16x128 ![] bcast_S_S16x128 (constant (F := Ideal) S_ .f32 0x3F800000#32)) lv) (mulf mu mu)) (Host.exp (F := Ideal) lv))
      (constant (F := Ideal) S_ .f32 0x00000000#32) reducesTo_S16x128_S_d0_1 h_S_)

/-- The kernel's result: the sixteen Chamfer sums added up from zero, plus the closing term. -/
def result (c : Dev nD) : FVec Ideal S_ .f32 :=
  addf (fun _ => (0 : EReal) + ∑ b : Fin 16, batchOut (field m c b))
    (klTail (m ((c : Thread nD τ).loc main_arg2)) (m ((c : Thread nD τ).loc main_arg3)))

/-- Adding up lane 0 of every row of an array whose row b holds val b in every lane: zero plus the sum of the val b. -/
theorem head_sum (OUT : FVec Ideal S16x1x128 .f32) (val : Fin 16 → EReal)
    (hOUT : ∀ (b : Fin 16) (z : Fin 1) (l : Fin 128), OUT (ix3 b z l) = val b) (i : S_.Idx) :
    Host.reduceAdd (F := Ideal) (shapeCast S16 (extractStridedSlice S16x1x1 ![0, 0, 0] OUT slices_S16x1x128_S16x1x1_0_0_0) shapeCasts_S16x1x1_S16)
        (constant (F := Ideal) S_ .f32 0x00000000#32) reducesTo_S16_S_d0 h_S_ i
      = (0 : EReal) + ∑ b : Fin 16, val b := by
  generalize hy : shapeCast S16 (extractStridedSlice S16x1x1 ![0, 0, 0] OUT slices_S16x1x128_S16x1x1_0_0_0) shapeCasts_S16x1x1_S16 = y
  have hyb : ∀ b : Fin 16, y (ix1 b) = val b := by
    intro b
    rw [← hy]
    refine (shapeCast_apply _ shapeCasts_S16x1x1_S16 (ix1 b) (ix3 b (0 : Fin 1) (0 : Fin 1)) ?_).trans ?_
    · rfl
    · refine (extractStridedSlice_apply ![0, 0, 0] OUT slices_S16x1x128_S16x1x1_0_0_0 (ix3 b (0 : Fin 1) (0 : Fin 1)) (ix3 b (0 : Fin 1) (0 : Fin 128)) ?_).trans (hOUT b 0 0)
      intro a
      match a with
      | ⟨0, _⟩ => show b.val = 0 + b.val; omega
      | ⟨1, _⟩ => rfl
      | ⟨2, _⟩ => rfl
  simp only [Host.reduceAdd, Ideal.hostReduceAdd_def]
  refine (Ideal.hostReduceAdd_total reducesTo_S16_S_d0 (fun b => b.elim0) y _ i).trans ?_
  congr 1
  · exact Ideal.ofBits_zero_f32
  · refine Fintype.sum_equiv ⟨fun j : S16.Idx => (⟨(j 0).val, (j 0).isLt⟩ : Fin 16), fun b => ix1 b, fun j => (eq_ix1 j).symm, fun b => rfl⟩ _ _ fun j => ?_
    rw [eq_ix1 j]
    exact hyb _

/-- What the host's operations after the region leave in the result buffer. -/
theorem tail_v12 (c : Dev nD) :
    Pipeline.afterTail₀ cfgs (dats m) 0 (V0 m) [hostOps1] c main_v12 = result m c := by
  unfold Pipeline.afterTail₀
  show StableHlo.after hostOps1 _ (Proc.devRef .tc main_v12) = _
  after_results
  have hA : Pipeline.withArrays (cfgs 0).spec c (V0 m c) (fun w => (dats m 0 c).arrAt w (cfgs 0).N) (Proc.devRef .tc main_v0)
      = (dats m 0 c).arrAt 2 cfg0.N :=
    Pipeline.withArrays_arr spec0 launch0.win.arr_inj c _ _ 2
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  rw [hA, h2, h3]
  unfold result
  have hOUT : ∀ (b : Fin 16) (z : Fin 1) (l : Fin 128),
      ((dats m 0 c).arrAt 2 cfg0.N : FVec Ideal S16x1x128 .f32) (ix3 b z l) = batchOut (field m c b) :=
    fun b z l => final_out m c (fun b => batchOut (field m c b)) (fun t h15 => out_last m c t h15) b z l
  generalize ((dats m 0 c).arrAt 2 cfg0.N : FVec Ideal S16x1x128 .f32) = OUT at hOUT ⊢
  refine congrArg₂ addf ?_ rfl
  funext i
  exact head_sum OUT (fun b => batchOut (field m c b)) hOUT i

/-- The run, read: the result buffer at the kernel's result, the four arguments unchanged. -/
theorem run : θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v12 (Pipeline.mem_restRefs_of main_v12 (by decide) (by decide))).trans (tail_v12 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.ChamferValue

end
-- ==== Proof.RefValue.lean ====
/-
  The reference's Chamfer part, read over the extended reals.

  The reference transposes both clouds to points-major, forms the whole [16, 4096, 4096] field of squared distances
  (the two squared norms broadcast along the other axis, minus twice the batched dot product over the three channels),
  takes the minimum along the row axis and along the column axis, and sums each table of minima from zero.  Index by
  index its field is the specification's pd, a minimum from +∞ over an axis is an infimum, and the two totals are the
  double sums of the column minima and of the row minima.
-/
import proofs.«129924_j19121194402402_1_alg».proof.Proof.Gen.ReferenceIdeal.Read
import proofs.«129924_j19121194402402_1_alg».proof.Proof.ChamferSpec
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Gen Cert.ReferenceIdeal.Read Cert.Chamfer

/-- The reference's field of squared distances at (b, n, m): rows index the second argument's points, columns the first's. -/
theorem field_apply (x0 x1 : (⟨S16x3x4096, .f32⟩ : BufTy).Contents (Elt Ideal)) (b : Fin 16) (n m : Fin 4096) :
    val_main_v14 (F := Ideal) x0 x1 (ix3 b n m) = pd x1 x0 b n m := by
  have e1 : ∀ k : Fin 3, idx_main_v0 (idx_main_v3 (idx_main_v7 (idx_main_v9 (ix3 b n m))) k) = ix3 b k n :=
    fun k => funext fun a => by match a with | ⟨0, _⟩ => rfl | ⟨1, _⟩ => rfl | ⟨2, _⟩ => rfl
  have e2 : ∀ k : Fin 3, idx_main_v1 (idx_main_v5 (idx_main_v8 (idx_main_v10 (ix3 b n m))) k) = ix3 b k m :=
    fun k => funext fun a => by match a with | ⟨0, _⟩ => rfl | ⟨1, _⟩ => rfl | ⟨2, _⟩ => rfl
  have e3 : ∀ k : Fin 3, idx_main_v0 (lidx_main_v6 (ix3 b n m) k) = ix3 b k n :=
    fun k => funext fun a => by match a with | ⟨0, _⟩ => rfl | ⟨1, _⟩ => rfl | ⟨2, _⟩ => rfl
  have e4 : ∀ k : Fin 3, idx_main_v1 (ridx_main_v6 (ix3 b n m) k) = ix3 b k m :=
    fun k => funext fun a => by match a with | ⟨0, _⟩ => rfl | ⟨1, _⟩ => rfl | ⟨2, _⟩ => rfl
  rw [val_main_v14_apply, val_main_v11_apply, val_main_v13_apply, val_main_v9_apply, val_main_v10_apply,
    val_main_v7_apply, val_main_v8_apply, val_main_v12_apply, val_main_v6_apply, val_main_v3_apply, val_main_v5_apply]
  simp only [val_main_v2_apply, val_main_v4_apply, val_main_v0_apply, val_main_v1_apply, val_main_cst_apply,
    val_main_cst_0_apply, val_main_cst_1_apply, e1, e2, e3, e4, Ideal.mulf_def, Ideal.addf_def, Ideal.subf_def,
    Ideal.ofBits_def, Ideal.ofBits_zero_f32, zero_add]
  unfold pd two
  simp only [Fin.sum_univ_three]

/-- The row coordinate put back into a reduced index (b, m) is (b, k, m). -/
private theorem lift_d1 (h : S16x4096x4096.Reduces [1] S16x4096) (b : Fin 16) (m : Fin 4096)
    (k : Fin (S16x4096x4096.size 1)) : h.lift (ix2 b m) k = ix3 b (⟨k.val, k.isLt⟩ : Fin 4096) m := by
  funext c; apply Fin.ext
  fin_cases c <;> rfl

/-- The column coordinate put back into a reduced index (b, n) is (b, n, k). -/
private theorem lift_d2 (h : S16x4096x4096.Reduces [2] S16x4096) (b : Fin 16) (n : Fin 4096)
    (k : Fin (S16x4096x4096.size 2)) : h.lift (ix2 b n) k = ix3 b n (⟨k.val, k.isLt⟩ : Fin 4096) := by
  funext c; apply Fin.ext
  fin_cases c <;> rfl

/-- The minimum along the row axis: the column minima. -/
theorem colMin_apply (x0 x1 : (⟨S16x3x4096, .f32⟩ : BufTy).Contents (Elt Ideal)) (b : Fin 16) (m : Fin 4096) :
    val_main_v15 (F := Ideal) x0 x1 (ix2 b m) = colMin (pd x1 x0 b) m := by
  have hy : ∀ n : Fin 4096, val_main_v14 (F := Ideal) x0 x1 (ix3 b n m) = pd x1 x0 b n m :=
    fun n => field_apply x0 x1 b n m
  unfold val_main_v15
  generalize val_main_v14 (F := Ideal) x0 x1 = y at hy ⊢
  have h : S16x4096x4096.Reduces [1] S16x4096 := by decide
  refine (Host.reduce_eq_fold_single (FloatOps.minimumf (F := Ideal) (φ := .f32)) y (val_main_cst_2 (F := Ideal))
    reducesTo_S16x4096x4096_S16x4096_d1 h h_S_ (ix2 b m)).trans ?_
  have hf : (y ∘ h.lift (ix2 b m)) = fun k : Fin 4096 => pd x1 x0 b k m :=
    funext fun k => (congrArg y (lift_d1 h b m k)).trans (hy _)
  exact (congrArg (fun f => Finset.fold min (Ideal.ofBits .f32 0x7F800000#32) f (Finset.univ : Finset (Fin 4096))) hf).trans
    (fold_min_eq_inf _ _)

/-- The minimum along the column axis: the row minima. -/
theorem rowMin_apply (x0 x1 : (⟨S16x3x4096, .f32⟩ : BufTy).Contents (Elt Ideal)) (b : Fin 16) (n : Fin 4096) :
    val_main_v17 (F := Ideal) x0 x1 (ix2 b n) = rowMin (pd x1 x0 b) n := by
  have hy : ∀ m : Fin 4096, val_main_v14 (F := Ideal) x0 x1 (ix3 b n m) = pd x1 x0 b n m :=
    fun m => field_apply x0 x1 b n m
  unfold val_main_v17
  generalize val_main_v14 (F := Ideal) x0 x1 = y at hy ⊢
  have h : S16x4096x4096.Reduces [2] S16x4096 := by decide
  refine (Host.reduce_eq_fold_single (FloatOps.minimumf (F := Ideal) (φ := .f32)) y (val_main_cst_4 (F := Ideal))
    reducesTo_S16x4096x4096_S16x4096_d2 h h_S_ (ix2 b n)).trans ?_
  have hf : (y ∘ h.lift (ix2 b n)) = fun k : Fin 4096 => pd x1 x0 b n k :=
    funext fun k => (congrArg y (lift_d2 h b n k)).trans (hy _)
  exact (congrArg (fun f => Finset.fold min (Ideal.ofBits .f32 0x7F800000#32) f (Finset.univ : Finset (Fin 4096))) hf).trans
    (fold_min_eq_inf _ _)

/-- The reference's Chamfer part: the column-minima total plus the row-minima total, each summed from zero. -/
theorem chamfer_apply (x0 x1 : (⟨S16x3x4096, .f32⟩ : BufTy).Contents (Elt Ideal)) (i : S_.Idx) :
    val_main_v19 (F := Ideal) x0 x1 i
      = ((0 : EReal) + ∑ b : Fin 16, ∑ m : Fin 4096, colMin (pd x1 x0 b) m)
        + ((0 : EReal) + ∑ b : Fin 16, ∑ n : Fin 4096, rowMin (pd x1 x0 b) n) := by
  rw [val_main_v19_apply, val_main_v16_apply, val_main_v18_apply, val_main_cst_3_apply, val_main_cst_5_apply,
    sum_idx2, sum_idx2]
  simp only [Ideal.addf_def, Ideal.ofBits_def, Ideal.ofBits_zero_f32, colMin_apply, rowMin_apply]

end Cert.ReferenceIdeal.RefValue

end
-- ==== Proof.lean ====
/-
  The certificate: a tiled Chamfer distance plus a closing term, against its plain reference.

  Both programs compute, over the extended reals,  Σ_b (Σ_n min_m Q_b n m + Σ_m min_n Q_b n m) + K,  where Q_b is the field
  of squared distances between the two clouds of batch entry b and K is the same closing term of the two small arguments.
  The kernel visits Q_b in sixteen 1024 × 1024 tiles, keeping running row and column minima that start at +∞, and adds
  them up after the last tile; the host sums the sixteen results.  The reference forms all of Q_b, takes its row and
  column minima, and sums each table.  The two totals differ only in the grouping and order of sums and of minima, so they
  are equal for all inputs: no finiteness is used.  The idealization rewrote nothing.
-/
import proofs.«129924_j19121194402402_1_alg».proof.Defs
import proofs.«129924_j19121194402402_1_alg».proof.Proof.Gen.Kernel
import proofs.«129924_j19121194402402_1_alg».proof.Proof.Gen.Kernel.Skeleton
import proofs.«129924_j19121194402402_1_alg».proof.Proof.Gen.Kernel.Launch
import proofs.«129924_j19121194402402_1_alg».proof.Proof.Gen.Kernel.Points
import proofs.«129924_j19121194402402_1_alg».proof.Proof.Gen.Kernel.Frame
import proofs.«129924_j19121194402402_1_alg».proof.Proof.Gen.KernelIdeal
import proofs.«129924_j19121194402402_1_alg».proof.Proof.Gen.KernelIdeal.Skeleton
import proofs.«129924_j19121194402402_1_alg».proof.Proof.Gen.KernelIdeal.Launch
import proofs.«129924_j19121194402402_1_alg».proof.Proof.Gen.KernelIdeal.Points
import proofs.«129924_j19121194402402_1_alg».proof.Proof.Gen.KernelIdeal.Frame
import proofs.«129924_j19121194402402_1_alg».proof.Proof.Gen.ReferenceIdeal
import proofs.«129924_j19121194402402_1_alg».proof.Proof.Gen.Pre_finite_inputs
import proofs.«129924_j19121194402402_1_alg».proof.Proof.Gen.ReferenceIdeal.Run
import proofs.«129924_j19121194402402_1_alg».proof.Proof.Gen.ReferenceIdeal.Read
import proofs.«129924_j19121194402402_1_alg».proof.Proof.KernelFinal
import proofs.«129924_j19121194402402_1_alg».proof.Proof.RefValue
import Idealize.ShloMosaic.Adequacy
import Idealize.ShloMosaic.Init

noncomputable section

open scoped BigOperators

namespace Cert.Proof

open Idealize.ShloMosaic Idealize.SL.Sem Cert.Chamfer

/-- The reference's result is the kernel's function of the four arguments: the Chamfer parts by regrouping the sums, the
    closing terms operation for operation. -/
theorem reference_eq (p g : (⟨Cert.ReferenceIdeal.S16x3x4096, .f32⟩ : BufTy).Contents (Elt Ideal))
    (mu lv : (⟨Cert.ReferenceIdeal.S16x128, .f32⟩ : BufTy).Contents (Elt Ideal)) :
    Cert.ReferenceIdeal.Read.val_main_v28 (F := Ideal) p g mu lv
      = addf (fun _ => (0 : EReal) + ∑ b : Fin 16, batchOut (pd g p b)) (Cert.KernelIdeal.ChamferValue.klTail mu lv) := by
  funext i
  refine (Cert.ReferenceIdeal.Read.val_main_v28_apply p g mu lv i).trans ?_
  rw [Cert.ReferenceIdeal.RefValue.chamfer_apply]
  refine congrArg₂ (fun a b : EReal => a + b)
    (chamfer_total (fun b n => rowMin (pd g p b) n) (fun b m => colMin (pd g p b) m)).symm ?_
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the same number in the result buffer, from memories that agree on the arguments. -/
theorem algebraic : Cert.algebraic_KernelIdeal_ReferenceIdeal := by
  intro m ρ m' ρ' _ hagree
  refine ⟨fun c => Cert.KernelIdeal.ChamferValue.result m c, Cert.KernelIdeal.ChamferValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v28_eq _ _ _ _).trans ?_
  exact reference_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
